-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S8192 : Shape := ⟨1, ![8192]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v10 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v10 main_v16
  let main_c_6 : IVec S_ 32 := constantI S_ 32 0#32
  let main_v18 : IVec S8192 32 := broadcastInDim S8192 ![] bcast_S_S8192 main_c_6
  let main_v19 : IVec S8192 1 := cmpi .sge main_arg3 main_v18
  let main_c_7 : IVec S_ 32 := constantI S_ 32 4096#32
  let main_v20 : IVec S8192 32 := broadcastInDim S8192 ![] bcast_S_S8192 main_c_7
  let main_v21 : IVec S8192 1 := cmpi .slt main_arg3 main_v20
  let main_v22 : IVec S8192 1 := andi main_v19 main_v21
  let main_c_8 : IVec S_ 1 := constantI S_ 1 1#1
  let main_v23 : IVec S_ 1 := (fun x v => Host.reduce IntOp.andi x v reducesTo_S8192_S_d0 h_S_) main_v22 main_c_8
  let main_v24 : IVec S_ 1 := andi main_v17 main_v23
  main_v24

def fn {F : FTy → Type} [FloatOps F] (main_arg0 : FVec F S4x1024x4096 .f32) (main_arg1 : IVec S8192 32) (main_arg2 : IVec S8192 32) (main_arg3 : IVec S8192 32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 4096#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  let main_c_3 : IVec S_ 32 := constantI S_ 32 0#32
  let main_v11 : IVec S8192 32 := broadcastInDim S8192 ![] bcast_S_S8192 main_c_3
  let main_v12 : IVec S8192 1 := cmpi .sge main_arg2 main_v11
  let main_c_4 : IVec S_ 32 := constantI S_ 32 4096#32
  let main_v13 : IVec S8192 32 := broadcastInDim S8192 ![] bcast_S_S8192 main_c_4
  let main_v14 : IVec S8192 1 := cmpi .slt main_arg2 main_v13
  let main_v15 : IVec S8192 1 := andi main_v12 main_v14
  let main_c_5 : IVec S_ 1 := constantI S_ 1 1#1
  fn_part1 (F := F) main_arg3 main_v10 main_v15 main_c_5
-- ==== Kernel.lean ====
abbrev S4x1024x4096 : Shape := ⟨3, ![4, 1024, 4096]⟩
abbrev S8192 : Shape := ⟨1, ![8192]⟩
abbrev S4096x4096 : Shape := ⟨2, ![4096, 4096]⟩
abbrev S1x8192 : Shape := ⟨2, ![1, 8192]⟩
abbrev S2x4096x4096 : Shape := ⟨3, ![2, 4096, 4096]⟩
abbrev S256x4096 : Shape := ⟨2, ![256, 4096]⟩
abbrev S1x256 : Shape := ⟨2, ![1, 256]⟩
abbrev S2x256x4096 : Shape := ⟨3, ![2, 256, 4096]⟩
abbrev S4096x256 : Shape := ⟨2, ![4096, 256]⟩
abbrev S4096x1 : Shape := ⟨2, ![4096, 1]⟩
abbrev S256x256 : Shape := ⟨2, ![256, 256]⟩
abbrev S1x256x4096 : Shape := ⟨3, ![1, 256, 4096]⟩
abbrev S8x1024x4096 : Shape := ⟨3, ![8, 1024, 4096]⟩

abbrev nBuf : Space → Nat
  | .hbm => 11
  | .vmem => 13
  | .smem => 0
  | _ => 0

abbrev bufTy : (tb : Table) → Fin (tcTables nBuf tb) → BufTy
  | .hbm, ⟨0, _⟩ => ⟨S4x1024x4096, .f32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S4096x4096, .f32⟩
  | .hbm, ⟨5, _⟩ => ⟨S4096x4096, .bf16⟩
  | .hbm, ⟨6, _⟩ => ⟨S1x8192, .i32⟩
  | .hbm, ⟨7, _⟩ => ⟨S1x8192, .i32⟩
  | .hbm, ⟨8, _⟩ => ⟨S1x8192, .i32⟩
  | .hbm, ⟨9, _⟩ => ⟨S2x4096x4096, .f32⟩
  | .hbm, ⟨10, _⟩ => ⟨S8x1024x4096, .f32⟩
  | .local _ .vmem, ⟨0, _⟩ => ⟨S256x4096, .bf16⟩
  | .local _ .vmem, ⟨1, _⟩ => ⟨S256x4096, .bf16⟩
  | .local _ .vmem, ⟨2, _⟩ => ⟨S1x256, .i32⟩
  | .local _ .vmem, ⟨3, _⟩ => ⟨S1x256, .i32⟩
  | .local _ .vmem, ⟨4, _⟩ => ⟨S1x256, .i32⟩
  | .local _ .vmem, ⟨5, _⟩ => ⟨S1x256, .i32⟩
  | .local _ .vmem, ⟨6, _⟩ => ⟨S1x256, .i32⟩
  | .local _ .vmem, ⟨7, _⟩ => ⟨S1x256, .i32⟩
  | .local _ .vmem, ⟨8, _⟩ => ⟨S2x256x4096, .f32⟩
  | .local _ .vmem, ⟨9, _⟩ => ⟨S2x256x4096, .f32⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x1024x4096_S4096x4096 : S4x1024x4096.ShapeCasts S4096x4096
  bitsLt_bf16_f32 : FTy.bits .bf16 < FTy.bits .f32
  shapeCasts_S8192_S1x8192 : S8192.ShapeCasts S1x8192
  inb_S2x256x4096_S2x256x4096_0_0_0 : ∀ a, (![0, 0, 0] : Fin 3 → Nat) a + S2x256x4096.size a ≤ S2x256x4096.size a
  h_S2x256x4096 : 0 < S2x256x4096.numel
  iota_S4096x1_d0_w32 : S4096x1.Iotas .tc 32 [0]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4096x1_S4096x256 : S4096x1.Broadcasts S4096x256
  broadcasts_S1x256_S4096x256 : S1x256.Broadcasts S4096x256
  natLt_1_32 : 1 < 32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S2x256x4096_S1x256x4096_0_0_0 : ∀ a, (![0, 0, 0] : Fin 3 → Nat) a + S1x256x4096.size a ≤ S2x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  inb_S2x256x4096_S1x256x4096_1_0_0 : ∀ a, (![1, 0, 0] : Fin 3 → Nat) a + S1x256x4096.size a ≤ S2x256x4096.size a
  shapeCasts_S2x4096x4096_S8x1024x4096 : S2x4096x4096.ShapeCasts S8x1024x4096
  dot_S256x4096_S4096x256_S256x256_1_0_0_1_n_n_wf : DotDims.WF S256x4096 S4096x256 S256x256 [1] [0] [0] [1] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x8192.size a
  hwx0_1 : ∀ i : grid0.Coords, EltTy.bits .i32 = 32 ∨ (Rect.block (s := S1x8192) S1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .i32 = 32 ∨ (Rect.block (s := S1x8192) S1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .i32 = 32 ∨ (Rect.block (s := S1x8192) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x256x4096.size a ≤ S2x4096x4096.size a
  hwx0_4 : ∀ i : grid0.Coords, EltTy.bits .f32 = 32 ∨ (Rect.block (s := S2x4096x4096) S2x256x4096.size (cc0_transform_4 i) (hinb0_4 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1024x4096 : Shape := ⟨3, ![4, 1024, 4096]⟩
abbrev S8192 : Shape := ⟨1, ![8192]⟩
abbrev S_ : Shape := ⟨0, ![]⟩
abbrev S8192x1 : Shape := ⟨2, ![8192, 1]⟩
abbrev S4x1024x8192 : Shape := ⟨3, ![4, 1024, 8192]⟩
abbrev S8x1024x4096 : Shape := ⟨3, ![8, 1024, 4096]⟩

abbrev nBuf : Space → Nat
  | .hbm => 93
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S4x1024x8192, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S4x1024x8192, .f32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S4x1024x8192, .f32⟩
  | .hbm, ⟨31, _⟩ => ⟨S_, .f32⟩
  | .hbm, ⟨32, _⟩ => ⟨S4x1024x4096, .f32⟩
  | .hbm, ⟨33, _⟩ => ⟨S4x1024x8192, .f32⟩
  | .hbm, ⟨34, _⟩ => ⟨S4x1024x8192, .f32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S4x1024x4096, .f32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S8192x1, .i32⟩
  | .hbm, ⟨52, _⟩ => ⟨S4x1024x4096, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S4x1024x4096, .f32⟩
  | .hbm, ⟨62, _⟩ => ⟨S4x1024x8192, .f32⟩
  | .hbm, ⟨63, _⟩ => ⟨S_, .i32⟩
  | .hbm, ⟨64, _⟩ => ⟨S8192, .i32⟩
  | .hbm, ⟨65, _⟩ => ⟨S8192, .i1⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S8192, .i32⟩
  | .hbm, ⟨70, _⟩ => ⟨S8192x1, .i32⟩
  | .hbm, ⟨71, _⟩ => ⟨S4x1024x4096, .f32⟩
  | .hbm, ⟨72, _⟩ => ⟨S4x1024x8192, .f32⟩
  | .hbm, ⟨73, _⟩ => ⟨S_, .i32⟩
  | .hbm, ⟨74, _⟩ => ⟨S8192, .i32⟩
  | .hbm, ⟨75, _⟩ => ⟨S8192, .i1⟩
  | .hbm, ⟨76, _⟩ => ⟨S_, .i32⟩
  | .hbm, ⟨77, _⟩ => ⟨S8192, .i32⟩
  | .hbm, ⟨78, _⟩ => ⟨S8192, .i32⟩
  | .hbm, ⟨79, _⟩ => ⟨S8192, .i32⟩
  | .hbm, ⟨80, _⟩ => ⟨S8192x1, .i32⟩
  | .hbm, ⟨81, _⟩ => ⟨S4x1024x4096, .f32⟩
  | .hbm, ⟨82, _⟩ => ⟨S4x1024x8192, .f32⟩
  | .hbm, ⟨83, _⟩ => ⟨S_, .i32⟩
  | .hbm, ⟨84, _⟩ => ⟨S8192, .i32⟩
  | .hbm, ⟨85, _⟩ => ⟨S8192, .i1⟩
  | .hbm, ⟨86, _⟩ => ⟨S_, .i32⟩
  | .hbm, ⟨87, _⟩ => ⟨S8192, .i32⟩
  | .hbm, ⟨88, _⟩ => ⟨S8192, .i32⟩
  | .hbm, ⟨89, _⟩ => ⟨S8192, .i32⟩
  | .hbm, ⟨90, _⟩ => ⟨S8192x1, .i32⟩
  | .hbm, ⟨91, _⟩ => ⟨S4x1024x4096, .f32⟩
  | .hbm, ⟨92, _⟩ => ⟨S8x1024x4096, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_9 : Ref sig .tc := ⟨.hbm, 53, rfl⟩
abbrev main_v38 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_13 : Ref sig .tc := ⟨.hbm, 73, rfl⟩
abbrev main_v54 : Ref sig .tc := ⟨.hbm, 74, rfl⟩
abbrev main_v55 : Ref sig .tc := ⟨.hbm, 75, rfl⟩
abbrev main_c_14 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_15 : Ref sig .tc := ⟨.hbm, 83, rfl⟩
abbrev main_v62 : Ref sig .tc := ⟨.hbm, 84, rfl⟩
abbrev main_v63 : Ref sig .tc := ⟨.hbm, 85, rfl⟩
abbrev main_c_16 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S4x1024x4096 : S_.BroadcastsInDim S4x1024x4096 (![] : Fin 0 → Fin S4x1024x4096.rank)
  concatenates_S4x1024x4096_S4x1024x4096_S8x1024x4096_d0 : Shape.Concatenates [S4x1024x4096, S4x1024x4096] S8x1024x4096 0
  gather_S4x1024x4096_S8192x1_S4x1024x8192_01_2_n_n_2_1_410241_wf : GatherDims.WF S4x1024x4096 S8192x1 S4x1024x8192 [0, 1] [2] [] [2] [] 1 ![4, 1024, 1]
  scatter_S4x1024x4096_S8192x1_S4x1024x8192_01_2_2_1_wf : ScatterDims.WF S4x1024x4096 S8192x1 S4x1024x8192 [0, 1] [2] [2] 1

variable [Facts₀]

def gather_S4x1024x4096_S8192x1_S4x1024x8192_01_2_n_n_2_1_410241 : GatherDims S4x1024x4096 S8192x1 S4x1024x8192 where
  offsetDims := [0, 1]
  collapsedSliceDims := [2]
  operandBatchingDims := []
  startIndicesBatchingDims := []
  startIndexMap := [2]
  indexVectorDim := 1
  sliceSizes := ![4, 1024, 1]
  wf := gather_S4x1024x4096_S8192x1_S4x1024x8192_01_2_n_n_2_1_410241_wf
def scatter_S4x1024x4096_S8192x1_S4x1024x8192_01_2_2_1 : ScatterDims S4x1024x4096 S8192x1 S4x1024x8192 where
  updateWindowDims := [0, 1]
  insertedWindowDims := [2]
  scatterDimsToOperandDims := [2]
  indexVectorDim := 1
  wf := scatter_S4x1024x4096_S8192x1_S4x1024x8192_01_2_2_1_wf

class Facts : Prop extends Facts₀ where

variable [Facts]
-- ==== Proof.Spec.lean ====
/-
  The common specification. Channel features X[f, r, .] are gathered onto 8192 cells through three
  index tables, multiplied cell by cell, and added back onto the channels through the same tables:
    part0[f, r, c] = sum over k of sum over the cells n with idx_k n = c of g0 g1 g2,
    part1[f, r, c] = sum over k of sum over the cells n with idx_k n = c of the product of the g_l, l ≠ k,
  with g_k[f, r, n] = X[f, r, idx_k n]; the result stacks part0 over part1 along the first axis.
  G is that function of the argument arrays, index by index. The second half states the same
  numbers as a matrix unit computes them tile by tile: gathers and scatters as sums against a
  one-hot table, the 8192 cells cut into 32 tiles of 256 and accumulated.
-/
import Idealize.ShloMosaic.Lib.ValueIdx
import Idealize.ShloMosaic.PureOps.Ideal

noncomputable section

namespace Cert.Spec

open Idealize.ShloMosaic Idealize.ShloMosaic.ValueIdx

/-- The input features, the index tables and the result, as shapes. -/
abbrev SX : Shape := ⟨3, ![4, 1024, 4096]⟩
abbrev SI : Shape := ⟨1, ![8192]⟩
abbrev SO : Shape := ⟨3, ![8, 1024, 4096]⟩

/-- Every word of an index table names a channel. -/
def InRange (ik : SI.Idx → BitVec 32) : Prop := ∀ n : Fin 8192, (ik (ix1 n)).toNat < 4096

/-- The channel cell n points at (read modulo the channel count, so that it is total). -/
def chan (ik : SI.Idx → BitVec 32) (n : Fin 8192) : Fin 4096 :=
  ⟨(ik (ix1 n)).toNat % 4096, Nat.mod_lt _ (by norm_num)⟩

/-- The feature gathered onto cell n. -/
def gat (X : SX.Idx → EReal) (ik : SI.Idx → BitVec 32) (f : Fin 4) (r : Fin 1024) (n : Fin 8192) : EReal :=
  X (ix3 f r (chan ik n))

/-- Cell values added onto the channels they point at. -/
def scat (ik : SI.Idx → BitVec 32) (v : Fin 8192 → EReal) (c : Fin 4096) : EReal :=
  ∑ n : Fin 8192, if chan ik n = c then v n else 0

/-- Plane p = 0: the triple product scattered through each table. Plane p = 1: each pair product
    scattered through the third table. -/
def res (X : SX.Idx → EReal) (i0 i1 i2 : SI.Idx → BitVec 32) (p : Fin 2) (f : Fin 4) (r : Fin 1024) (c : Fin 4096) : EReal :=
  if p.val = 0 then
    scat i0 (fun n => gat X i0 f r n * gat X i1 f r n * gat X i2 f r n) c
      + scat i1 (fun n => gat X i0 f r n * gat X i1 f r n * gat X i2 f r n) c
      + scat i2 (fun n => gat X i0 f r n * gat X i1 f r n * gat X i2 f r n) c
  else
    scat i0 (fun n => gat X i1 f r n * gat X i2 f r n) c
      + scat i1 (fun n => gat X i0 f r n * gat X i2 f r n) c
      + scat i2 (fun n => gat X i0 f r n * gat X i1 f r n) c

theorem so_lt0 (o : SO.Idx) : (o 0).val < 8 := (o 0).isLt
theorem so_lt1 (o : SO.Idx) : (o 1).val < 1024 := (o 1).isLt
theorem so_lt2 (o : SO.Idx) : (o 2).val < 4096 := (o 2).isLt

/-- The whole result: rows 0 to 3 of the first axis are plane 0, rows 4 to 7 plane 1. -/
def G (X : SX.Idx → EReal) (i0 i1 i2 : SI.Idx → BitVec 32) : SO.Idx → EReal := fun o =>
  res X i0 i1 i2 ⟨(o 0).val / 4, by have := so_lt0 o; omega⟩ ⟨(o 0).val % 4, Nat.mod_lt _ (by norm_num)⟩
    ⟨(o 1).val, so_lt1 o⟩ ⟨(o 2).val, so_lt2 o⟩

/-! ## The same numbers, tile by tile against a one-hot table -/

/-- The one-hot table: 1 where cell n's word is channel c. -/
def hot (ik : SI.Idx → BitVec 32) (c : Fin 4096) (n : Fin 8192) : EReal :=
  if BitVec.ofNat 32 c.val = ik (ix1 n) then 1 else 0

/-- Cell j of tile k. -/
def cell (k : Fin 32) (j : Fin 256) : Fin 8192 := ⟨256 * k.val + j.val, by omega⟩

/-- Row row of the features flattened to 4096 rows. -/
def xrow (X : SX.Idx → EReal) (row : Fin 4096) (c : Fin 4096) : EReal :=
  X (ix3 ⟨row.val / 1024, by omega⟩ ⟨row.val % 1024, Nat.mod_lt _ (by norm_num)⟩ c)

/-- The gather as a product with the one-hot table, over a zero accumulator. -/
def kgat (X : SX.Idx → EReal) (ik : SI.Idx → BitVec 32) (row : Fin 4096) (n : Fin 8192) : EReal :=
  0 + ∑ c : Fin 4096, xrow X row c * hot ik c n

/-- What tile k adds to plane p at (row, c). -/
def ktile (X : SX.Idx → EReal) (i0 i1 i2 : SI.Idx → BitVec 32) (p : Fin 2) (row : Fin 4096) (k : Fin 32) (c : Fin 4096) : EReal :=
  if p.val = 0 then
    0 + ∑ j : Fin 256, (kgat X i0 row (cell k j) * kgat X i1 row (cell k j) * kgat X i2 row (cell k j))
          * (hot i0 c (cell k j) + hot i1 c (cell k j) + hot i2 c (cell k j))
  else
    ((0 + ∑ j : Fin 256, (kgat X i1 row (cell k j) * kgat X i2 row (cell k j)) * hot i0 c (cell k j))
      + (0 + ∑ j : Fin 256, (kgat X i0 row (cell k j) * kgat X i2 row (cell k j)) * hot i1 c (cell k j)))
      + (0 + ∑ j : Fin 256, (kgat X i0 row (cell k j) * kgat X i1 row (cell k j)) * hot i2 c (cell k j))

/-- The accumulator after tile k: zero, then tile after tile added on the right. -/
def kacc (t : ℕ → EReal) : ℕ → EReal
  | 0 => 0 + t 0
  | k + 1 => kacc t k + t (k + 1)

/-- The tiles of plane p at (row, c), indexed by a natural number (0 past the last). -/
def ktileN (X : SX.Idx → EReal) (i0 i1 i2 : SI.Idx → BitVec 32) (p : Fin 2) (row : Fin 4096) (c : Fin 4096) (k : ℕ) : EReal :=
  if h : k < 32 then ktile X i0 i1 i2 p row ⟨k, h⟩ c else 0

example : FVec Ideal SX .f32 = (SX.Idx → EReal) := rfl
example : IVec SI 32 = (SI.Idx → BitVec 32) := rfl

end Cert.Spec

end
-- ==== Proof.PreFacts.lean ====
/-
  What the precondition says of the index tables: every word lies in [0, 4096), so read as a natural number it is below 4096.
-/
import proofs.«421886_j6640019440385_3_alg».proof.Pre_finite_inputs
import proofs.«421886_j6640019440385_3_alg».proof.Proof.Gen.Pre_finite_inputs
import proofs.«421886_j6640019440385_3_alg».proof.Proof.Spec
import Idealize.ShloMosaic.Lib.ReduceAll
import Idealize.ShloMosaic.Lib.StableHlo.Predicate

noncomputable section

namespace Cert.PreFacts

open Idealize.ShloMosaic Cert.Spec

/-- The rank-0 shape has one index. -/
instance : Subsingleton Cert.Pre_finite_inputs.S_.Idx := ⟨fun a b => funext fun d => d.elim0⟩

/-- A word that is signed-nonnegative and signed-below 4096 is, read as a natural number, below 4096. -/
theorem toNat_lt_of_cmp (w : BitVec 32) (h0 : IntOp.cmpi .sge w 0#32 = 1#1)
    (h1 : IntOp.cmpi .slt w 4096#32 = 1#1) : w.toNat < 4096 := by
  rw [IntOp.cmpi_sge] at h0
  rw [IntOp.cmpi_slt] at h1
  have e0 : (0#32 : BitVec 32).toInt = 0 := by decide
  have e1 : (4096#32 : BitVec 32).toInt = 4096 := by decide
  have hc := BitVec.toInt_eq_toNat_cond w
  have hl := w.isLt
  rw [e0] at h0
  rw [e1] at h1
  omega

/-- One table's conjunct: the conjunction over all 8192 cells of (0 ≤ word) and (word < 4096), signed,
    being 1, every word of the table is below 4096 as a natural number. At a cell the conjunction is the
    and of the two compare bits, and each broadcast constant reads as the constant. -/
theorem inRange_of_all (x : SI.Idx → BitVec 32) (init : Cert.Pre_finite_inputs.S_.Idx → BitVec 1)
    (hb : Cert.Pre_finite_inputs.S_.BroadcastsInDim Cert.Pre_finite_inputs.S8192 ![])
    (hr : Cert.Pre_finite_inputs.S8192.ReducesTo [0] Cert.Pre_finite_inputs.S_)
    (hu : 0 < Cert.Pre_finite_inputs.S_.numel) (j : Cert.Pre_finite_inputs.S_.Idx)
    (e : Host.reduce IntOp.andi
          (andi
            (cmpi .sge x (broadcastInDim Cert.Pre_finite_inputs.S8192 ![] hb (constantI Cert.Pre_finite_inputs.S_ 32 0#32)))
            (cmpi .slt x (broadcastInDim Cert.Pre_finite_inputs.S8192 ![] hb (constantI Cert.Pre_finite_inputs.S_ 32 4096#32))))
          init hr hu j = 1#1) : InRange x := by
  intro n
  have a := Host.reduce_andi_all _ init hr hu j e (ValueIdx.ix1 n)
  obtain ⟨a0, a1⟩ := IntOp.andi_eq_one.1 a
  exact toNat_lt_of_cmp _ a0 a1

/-- The precondition, all ones, puts every word of the three index tables in range. -/
theorem inRange_of_pre (x0 : SX.Idx → EReal) (x1 x2 x3 : SI.Idx → BitVec 32)
    (h : Cert.Pre_finite_inputs.fn (F := Ideal) x0 x1 x2 x3 = fun _ => 1#1) :
    InRange x1 ∧ InRange x2 ∧ InRange x3 := by
  -- the result is a rank-0 vector: read it at its one index, with one let per operation in view
  have e := congrFun h ValueIdx.ix0
  dsimp only [Cert.Pre_finite_inputs.fn, Cert.Pre_finite_inputs.fn_part1] at e
  -- the scalar conjunctions: ((finite ∧ range x1) ∧ range x2) ∧ range x3
  obtain ⟨e12, e3⟩ := IntOp.andi_eq_one.1 e
  obtain ⟨e01, e2⟩ := IntOp.andi_eq_one.1 e12
  obtain ⟨-, e1⟩ := IntOp.andi_eq_one.1 e01
  exact ⟨inRange_of_all x1 _ _ _ _ _ e1, inRange_of_all x2 _ _ _ _ _ e2, inRange_of_all x3 _ _ _ _ _ e3⟩

end Cert.PreFacts

end
-- ==== Proof.KAlg.lean ====
/-
  The tile-by-tile accumulation against the one-hot table adds up to the specification: a sum against a one-hot column
  picks one term, a product with a sum of one-hot entries splits, and 32 tiles of 256 cells are the 8192 cells.
-/
import proofs.«421886_j6640019440385_3_alg».proof.Proof.Spec

noncomputable section

namespace Cert.Spec

open Idealize.ShloMosaic Idealize.ShloMosaic.ValueIdx

/-! ## The one-hot table -/

/-- A one-hot entry is 0 or 1, so it is nonnegative. -/
theorem hot_nonneg (ik : SI.Idx → BitVec 32) (c : Fin 4096) (n : Fin 8192) : 0 ≤ hot ik c n := by
  unfold hot
  split_ifs
  · exact zero_le_one
  · exact le_refl 0

/-- When every word names a channel, the word of cell n is the 32-bit numeral of c exactly when
    cell n points at channel c: both sides say that the word's value is c. -/
theorem hot_eq (ik : SI.Idx → BitVec 32) (h : InRange ik) (c : Fin 4096) (n : Fin 8192) :
    hot ik c n = if chan ik n = c then 1 else 0 := by
  have hn : (ik (ix1 n)).toNat < 4096 := h n
  have hc : c.val < 4096 := c.isLt
  have hiff : (BitVec.ofNat 32 c.val = ik (ix1 n)) ↔ (chan ik n = c) := by
    constructor
    · intro e
      apply Fin.ext
      show (ik (ix1 n)).toNat % 4096 = c.val
      rw [← e, BitVec.toNat_ofNat]
      omega
    · intro e
      have e' : (ik (ix1 n)).toNat % 4096 = c.val := congrArg Fin.val e
      apply BitVec.eq_of_toNat_eq
      rw [BitVec.toNat_ofNat]
      omega
  unfold hot
  by_cases hcc : chan ik n = c
  · rw [if_pos hcc, if_pos (hiff.mpr hcc)]
  · rw [if_neg hcc, if_neg (fun e => hcc (hiff.mp e))]

/-- The gather against the one-hot table reads the channel the cell points at: the column of the
    table at cell n has its single 1 at that channel, and x * 1 = x, x * 0 = 0 for every extended real. -/
theorem kgat_eq (X : SX.Idx → EReal) (ik : SI.Idx → BitVec 32) (h : InRange ik) (row : Fin 4096) (n : Fin 8192) :
    kgat X ik row n
      = gat X ik ⟨row.val / 1024, by omega⟩ ⟨row.val % 1024, Nat.mod_lt _ (by norm_num)⟩ n := by
  unfold kgat
  rw [zero_add]
  simp only [hot_eq ik h, mul_ite, mul_one, mul_zero]
  rw [Finset.sum_ite_eq]
  simp only [Finset.mem_univ, if_true]
  rfl

/-! ## The accumulator and the tiles -/

/-- The accumulator after tile k is the sum of the tiles up to k. -/
theorem kacc_eq_sum (t : ℕ → EReal) (k : ℕ) : kacc t k = ∑ i ∈ Finset.range (k + 1), t i := by
  induction k with
  | zero => rw [kacc, zero_add, Finset.sum_range_one]
  | succ k ih =>
    rw [kacc, ih]
    exact (Finset.sum_range_succ t (k + 1)).symm

/-- The pair (tile, cell in the tile) numbers the 8192 cells. -/
def cellEquiv : Fin 32 × Fin 256 ≃ Fin 8192 :=
  finProdFinEquiv.trans (finCongr (by norm_num : 32 * 256 = 8192))

theorem cellEquiv_apply (k : Fin 32) (j : Fin 256) : cellEquiv (k, j) = cell k j := by
  apply Fin.ext
  simp only [cellEquiv, cell, Equiv.trans_apply, finProdFinEquiv_apply_val, finCongr_apply, Fin.val_cast]
  omega

/-- Summing tile by tile, then cell by cell in the tile, is summing over all cells. -/
theorem sum_cell (F : Fin 8192 → EReal) :
    ∑ k : Fin 32, ∑ j : Fin 256, F (cell k j) = ∑ n : Fin 8192, F n := by
  rw [← Equiv.sum_comp cellEquiv F, Fintype.sum_prod_type]
  simp only [cellEquiv_apply]

/-- Cell values times one column of the one-hot table, summed over all tiles, are the values
    scattered onto that channel. -/
theorem sum_tiles_scat (ik : SI.Idx → BitVec 32) (h : InRange ik) (V : Fin 8192 → EReal) (c : Fin 4096) :
    ∑ k : Fin 32, ∑ j : Fin 256, V (cell k j) * hot ik c (cell k j) = scat ik V c := by
  rw [sum_cell (fun n => V n * hot ik c n)]
  unfold scat
  refine Finset.sum_congr rfl (fun n _ => ?_)
  rw [hot_eq ik h, mul_ite, mul_one, mul_zero]

/-- One scatter through the sum of the three tables is the sum of the three scatters: the table
    entries are nonnegative, so the product distributes over their sum. -/
theorem tiles_triple (i0 i1 i2 : SI.Idx → BitVec 32) (h0 : InRange i0) (h1 : InRange i1) (h2 : InRange i2)
    (V : Fin 8192 → EReal) (c : Fin 4096) :
    ∑ k : Fin 32, (0 + ∑ j : Fin 256,
        V (cell k j) * (hot i0 c (cell k j) + hot i1 c (cell k j) + hot i2 c (cell k j)))
      = scat i0 V c + scat i1 V c + scat i2 V c := by
  have hsplit : ∀ k : Fin 32,
      (0 + ∑ j : Fin 256, V (cell k j) * (hot i0 c (cell k j) + hot i1 c (cell k j) + hot i2 c (cell k j)))
        = (∑ j : Fin 256, V (cell k j) * hot i0 c (cell k j))
          + (∑ j : Fin 256, V (cell k j) * hot i1 c (cell k j))
          + (∑ j : Fin 256, V (cell k j) * hot i2 c (cell k j)) := by
    intro k
    rw [zero_add, ← Finset.sum_add_distrib, ← Finset.sum_add_distrib]
    refine Finset.sum_congr rfl (fun j _ => ?_)
    rw [EReal.left_distrib_of_nonneg (add_nonneg (hot_nonneg _ _ _) (hot_nonneg _ _ _)) (hot_nonneg _ _ _),
      EReal.left_distrib_of_nonneg (hot_nonneg _ _ _) (hot_nonneg _ _ _)]
  simp only [hsplit]
  rw [Finset.sum_add_distrib, Finset.sum_add_distrib, sum_tiles_scat i0 h0, sum_tiles_scat i1 h1,
    sum_tiles_scat i2 h2]

/-- Three scatters accumulated side by side, tile by tile. -/
theorem tiles_pairs (i0 i1 i2 : SI.Idx → BitVec 32) (h0 : InRange i0) (h1 : InRange i1) (h2 : InRange i2)
    (V0 V1 V2 : Fin 8192 → EReal) (c : Fin 4096) :
    ∑ k : Fin 32, (((0 + ∑ j : Fin 256, V0 (cell k j) * hot i0 c (cell k j))
        + (0 + ∑ j : Fin 256, V1 (cell k j) * hot i1 c (cell k j)))
        + (0 + ∑ j : Fin 256, V2 (cell k j) * hot i2 c (cell k j)))
      = scat i0 V0 c + scat i1 V1 c + scat i2 V2 c := by
  simp only [zero_add]
  rw [Finset.sum_add_distrib, Finset.sum_add_distrib, sum_tiles_scat i0 h0, sum_tiles_scat i1 h1,
    sum_tiles_scat i2 h2]

/-- The accumulator after the last tile is the sum of the 32 tiles. -/
theorem kacc_tiles (X : SX.Idx → EReal) (i0 i1 i2 : SI.Idx → BitVec 32) (p : Fin 2) (row : Fin 4096)
    (c : Fin 4096) :
    kacc (ktileN X i0 i1 i2 p row c) 31 = ∑ k : Fin 32, ktile X i0 i1 i2 p row k c := by
  rw [kacc_eq_sum]
  show ∑ i ∈ Finset.range 32, ktileN X i0 i1 i2 p row c i = _
  rw [Finset.sum_range]
  refine Finset.sum_congr rfl (fun k _ => ?_)
  unfold ktileN
  rw [dif_pos k.isLt]

/-- The accumulator after the last tile is the specification's value. -/
theorem kacc_eq_res (X : SX.Idx → EReal) (i0 i1 i2 : SI.Idx → BitVec 32)
    (h0 : InRange i0) (h1 : InRange i1) (h2 : InRange i2) (p : Fin 2) (row : Fin 4096) (c : Fin 4096) :
    kacc (ktileN X i0 i1 i2 p row c) 31
      = res X i0 i1 i2 p ⟨row.val / 1024, by omega⟩ ⟨row.val % 1024, Nat.mod_lt _ (by norm_num)⟩ c := by
  rw [kacc_tiles]
  by_cases hp : p.val = 0
  · simp only [ktile, res, if_pos hp, kgat_eq X i0 h0, kgat_eq X i1 h1, kgat_eq X i2 h2]
    exact tiles_triple i0 i1 i2 h0 h1 h2
      (fun n => gat X i0 ⟨row.val / 1024, by omega⟩ ⟨row.val % 1024, Nat.mod_lt _ (by norm_num)⟩ n
        * gat X i1 ⟨row.val / 1024, by omega⟩ ⟨row.val % 1024, Nat.mod_lt _ (by norm_num)⟩ n
        * gat X i2 ⟨row.val / 1024, by omega⟩ ⟨row.val % 1024, Nat.mod_lt _ (by norm_num)⟩ n) c
  · simp only [ktile, res, if_neg hp, kgat_eq X i0 h0, kgat_eq X i1 h1, kgat_eq X i2 h2]
    exact tiles_pairs i0 i1 i2 h0 h1 h2
      (fun n => gat X i1 ⟨row.val / 1024, by omega⟩ ⟨row.val % 1024, Nat.mod_lt _ (by norm_num)⟩ n
        * gat X i2 ⟨row.val / 1024, by omega⟩ ⟨row.val % 1024, Nat.mod_lt _ (by norm_num)⟩ n)
      (fun n => gat X i0 ⟨row.val / 1024, by omega⟩ ⟨row.val % 1024, Nat.mod_lt _ (by norm_num)⟩ n
        * gat X i2 ⟨row.val / 1024, by omega⟩ ⟨row.val % 1024, Nat.mod_lt _ (by norm_num)⟩ n)
      (fun n => gat X i0 ⟨row.val / 1024, by omega⟩ ⟨row.val % 1024, Nat.mod_lt _ (by norm_num)⟩ n
        * gat X i1 ⟨row.val / 1024, by omega⟩ ⟨row.val % 1024, Nat.mod_lt _ (by norm_num)⟩ n) c

end Cert.Spec

end
-- ==== Proof.KPieces.lean ====
/-
  What the body leaves in the output block, case by case, read at an index. The block has two planes of 256 x 4096. Away
  from the first cell tile the body stores into each plane what it held plus the tile's contribution, the two stores
  covering the block; at the first cell tile it first stores zeros over the whole block and reads them back. Here the
  covering stores are read back at an index of either plane: the later store of plane 1 wins there, plane 0's elsewhere.
-/
import proofs.«421886_j6640019440385_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.KPieces

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Plane 0 and plane 1 of the output block, and the whole block, as rectangles. -/
abbrev R0 : Rect S2x256x4096 := Rect.unit (s := S2x256x4096) ![0, 0, 0] S1x256x4096.size Facts₀.inb_S2x256x4096_S1x256x4096_0_0_0
abbrev R1 : Rect S2x256x4096 := Rect.unit (s := S2x256x4096) ![1, 0, 0] S1x256x4096.size Facts₀.inb_S2x256x4096_S1x256x4096_1_0_0
abbrev Rw : Rect S2x256x4096 := Rect.unit (s := S2x256x4096) ![0, 0, 0] S2x256x4096.size Facts₀.inb_S2x256x4096_S2x256x4096_0_0_0

/-- Entry (r, cc) of plane 0 sits at (0, r, cc) of the block; -/
theorem R0_emb (r : Fin 256) (cc : Fin 4096) : R0.emb (ix3 (0 : Fin 1) r cc) = ix3 (0 : Fin 2) r cc := by
  funext a; apply Fin.ext
  match a with
  | ⟨0, _⟩ => rfl
  | ⟨1, _⟩ => show 0 + 1 * r.val = r.val; omega
  | ⟨2, _⟩ => show 0 + 1 * cc.val = cc.val; omega

/-- of plane 1 at (1, r, cc). -/
theorem R1_emb (r : Fin 256) (cc : Fin 4096) : R1.emb (ix3 (0 : Fin 1) r cc) = ix3 (1 : Fin 2) r cc := by
  funext a; apply Fin.ext
  match a with
  | ⟨0, _⟩ => rfl
  | ⟨1, _⟩ => show 0 + 1 * r.val = r.val; omega
  | ⟨2, _⟩ => show 0 + 1 * cc.val = cc.val; omega

theorem not_mem_R1 (r : Fin 256) (cc : Fin 4096) : ix3 (0 : Fin 2) r cc ∉ R1.set := by
  rw [Rect.mem_set_unit]
  intro h
  have h0 := (h (0 : Fin 3)).1
  exact absurd h0 (by show ¬ (1 ≤ 0); omega)

theorem not_mem_R0 (r : Fin 256) (cc : Fin 4096) : ix3 (1 : Fin 2) r cc ∉ R0.set := by
  rw [Rect.mem_set_unit]
  intro h
  have h0 := (h (0 : Fin 3)).2
  exact absurd h0 (by show ¬ (1 < 0 + 1); omega)

/-- A load of a plane reads the block at that plane's indices. -/
theorem ld_R0 (xo : Vec F S2x256x4096 .f32) (r : Fin 256) (cc : Fin 4096) :
    View.ld xo R0 (ix3 (0 : Fin 1) r cc) = xo (ix3 (0 : Fin 2) r cc) := congrArg xo (R0_emb r cc)
theorem ld_R1 (xo : Vec F S2x256x4096 .f32) (r : Fin 256) (cc : Fin 4096) :
    View.ld xo R1 (ix3 (0 : Fin 1) r cc) = xo (ix3 (1 : Fin 2) r cc) := congrArg xo (R1_emb r cc)

/-- With plane 1 stored last and plane 0 before it, plane 1 reads the last store, -/
theorem canon_at1 (w1 w0 : Vec F S1x256x4096 .f32) (L : List (View.Piece (Elt F) S2x256x4096 .f32)) (r : Fin 256) (cc : Fin 4096) :
    View.canon ((⟨R1, w1⟩ : View.Piece (Elt F) S2x256x4096 .f32) :: ⟨R0, w0⟩ :: L) (ix3 (1 : Fin 2) r cc) = w1 (ix3 (0 : Fin 1) r cc) := by
  rw [← R1_emb r cc]; exact View.canon_cons_emb R1 w1 _ _

/-- and plane 0 the one before. -/
theorem canon_at0 (w1 w0 : Vec F S1x256x4096 .f32) (L : List (View.Piece (Elt F) S2x256x4096 .f32)) (r : Fin 256) (cc : Fin 4096) :
    View.canon ((⟨R1, w1⟩ : View.Piece (Elt F) S2x256x4096 .f32) :: ⟨R0, w0⟩ :: L) (ix3 (0 : Fin 2) r cc) = w0 (ix3 (0 : Fin 1) r cc) := by
  have e := View.canon_cons_of_not_mem (⟨R1, w1⟩ : View.Piece (Elt F) S2x256x4096 .f32) (⟨R0, w0⟩ :: L) (not_mem_R1 r cc)
  rw [e, ← R0_emb r cc]; exact View.canon_cons_emb R0 w0 _ _

/-- Away from the first cell tile: the block held xo4; each plane ends at its payload over the plane's old contents. -/
theorem outB_canon (c : Dev nD) (i : grid0.Coords) (arg2 : Memref sig .tc .vmem S256x4096 .bf16) (harg2 : arg2.IsWhole) (arg3 : Memref sig .tc .vmem S1x256 .i32) (harg3 : arg3.IsWhole) (arg4 : Memref sig .tc .vmem S1x256 .i32) (harg4 : arg4.IsWhole) (arg5 : Memref sig .tc .vmem S1x256 .i32) (harg5 : arg5.IsWhole) (arg6 : Memref sig .tc .vmem S2x256x4096 .f32) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole) (hc0 : ¬cond0_0 i)
    (x0 : Vec F S256x4096 .bf16) (x1 : Vec F S1x256 .i32) (x2 : Vec F S1x256 .i32) (x3 : Vec F S1x256 .i32) (xo4 : Vec F S2x256x4096 .f32) :
    out0_B_4 c i arg2 harg2 arg3 harg3 arg4 harg4 arg5 harg5 arg6 harg6 arg7 harg7 arg8 harg8 arg9 harg9 hc0 x0 x1 x2 x3 xo4
      = View.canon [(⟨R1, k0_pay1 (k0_pay11 x0 (k0_pay3 x1) (k0_pay4 x2) (k0_pay5 x3) (View.ld xo4 R1))⟩ : View.Piece (Elt F) S2x256x4096 .f32),
          ⟨R0, k0_pay10 x0 (k0_pay3 x1) (k0_pay4 x2) (k0_pay5 x3) (View.ld xo4 R0)⟩] := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xo4)]
  unfold kernelRun0_B
  dsimp only
  sl_unfold_words
  simp only [View.readAt_eq_ld, harg2.read_unread, harg3.read_unread, harg4.read_unread, harg5.read_unread, harg6.read_unread,
    View.ld_unit_zero (S := S256x4096) hz2, View.ld_unit_zero (S := S1x256) hz2, View.readCov_unit_zero (S := S4096x256) _ hz2]

/-- At the first cell tile: the zero block z is stored first and read back by both planes' loads. -/
theorem outA_canon (c : Dev nD) (i : grid0.Coords) (arg2 : Memref sig .tc .vmem S256x4096 .bf16) (harg2 : arg2.IsWhole) (arg3 : Memref sig .tc .vmem S1x256 .i32) (harg3 : arg3.IsWhole) (arg4 : Memref sig .tc .vmem S1x256 .i32) (harg4 : arg4.IsWhole) (arg5 : Memref sig .tc .vmem S1x256 .i32) (harg5 : arg5.IsWhole) (arg6 : Memref sig .tc .vmem S2x256x4096 .f32) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole) (hc0 : cond0_0 i)
    (x0 : Vec F S256x4096 .bf16) (x1 : Vec F S1x256 .i32) (x2 : Vec F S1x256 .i32) (x3 : Vec F S1x256 .i32) :
    out0_A_4 c i arg2 harg2 arg3 harg3 arg4 harg4 arg5 harg5 arg6 harg6 arg7 harg7 arg8 harg8 arg9 harg9 hc0 x0 x1 x2 x3
      = View.canon [(⟨R1, k0_pay1 (k0_pay11 x0 (k0_pay3 x1) (k0_pay4 x2) (k0_pay5 x3)
              (fun j => View.canon [(⟨R0, k0_pay10 x0 (k0_pay3 x1) (k0_pay4 x2) (k0_pay5 x3) (fun j => (k0_pay2 : Vec F S2x256x4096 .f32) (R0.idx j))⟩ : View.Piece (Elt F) S2x256x4096 .f32),
                  ⟨Rw, k0_pay2⟩] (R1.idx j)))⟩ : View.Piece (Elt F) S2x256x4096 .f32),
          ⟨R0, k0_pay10 x0 (k0_pay3 x1) (k0_pay4 x2) (k0_pay5 x3) (fun j => (k0_pay2 : Vec F S2x256x4096 .f32) (R0.idx j))⟩,
          ⟨Rw, k0_pay2⟩] := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  simp only [View.readAt_eq_ld, harg2.read_unread, harg3.read_unread, harg4.read_unread, harg5.read_unread,
    View.ld_unit_zero (S := S256x4096) hz2, View.ld_unit_zero (S := S1x256) hz2, View.readCov_unit_zero (S := S4096x256) _ hz2,
    View.readCov_eq_canon', View.canon_unit_zero (S := S2x256x4096) hz3]
  rfl

/-- Plane 1's load at the first cell tile, after plane 0's store, still reads the zero block. -/
theorem canonA_read1 (w0 : Vec F S1x256x4096 .f32) (r : Fin 256) (cc : Fin 4096) :
    View.canon [(⟨R0, w0⟩ : View.Piece (Elt F) S2x256x4096 .f32), ⟨Rw, k0_pay2⟩] (R1.idx (ix3 (0 : Fin 1) r cc))
      = (k0_pay2 : Vec F S2x256x4096 .f32) (ix3 (1 : Fin 2) r cc) := by
  have h1 : View.canon [(⟨R0, w0⟩ : View.Piece (Elt F) S2x256x4096 .f32), ⟨Rw, k0_pay2⟩] (ix3 (1 : Fin 2) r cc)
      = View.canon [(⟨Rw, k0_pay2⟩ : View.Piece (Elt F) S2x256x4096 .f32)] (ix3 (1 : Fin 2) r cc) :=
    View.canon_cons_of_not_mem (⟨R0, w0⟩ : View.Piece (Elt F) S2x256x4096 .f32) [⟨Rw, k0_pay2⟩] (not_mem_R0 r cc)
  have h2 : View.canon [(⟨Rw, k0_pay2⟩ : View.Piece (Elt F) S2x256x4096 .f32)] = (k0_pay2 : Vec F S2x256x4096 .f32) :=
    View.canon_unit_zero (S := S2x256x4096) hz3 _ _
  have h3 : R1.idx (ix3 (0 : Fin 1) r cc) = ix3 (1 : Fin 2) r cc := R1_emb r cc
  rw [h3, h1, h2]

end Cert.KernelIdeal.KPieces

end
-- ==== Proof.KPay.lean ====
/-
  The body's arithmetic read at an index, over the extended reals. A one-hot table entry is 1 where the row number equals
  the cell's index word; a product with the table on the matrix unit is, over a zero accumulator, the sum over the
  contracted axis; the two accumulating stores add to what the output block held the scatter of the triple product
  through the sum of the three tables, and the three scatters of the pair products.
-/
import proofs.«421886_j6640019440385_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.KPay

open Cert.KernelIdeal Cert.KernelIdeal.Gen Idealize.ShloMosaic Idealize.ShloMosaic.ValueIdx

/-! ## The one-hot tables -/

/-- A one-bit word widened to 32 bits and read as a signed integer, as an extended real: 1 for the bit 1, else 0. -/
theorem bit_to_real (b : BitVec 1) :
    (FloatOps.sitofp (F := Ideal) .f32 (b.setWidth 32) : EReal) = if b = 1#1 then (1 : EReal) else 0 := by
  rcases BitVec.eq_zero_or_eq_one b with h | h
  · subst h
    rw [if_neg (by decide)]
    show (((0#1).setWidth 32).toInt : ℝ) = (0 : EReal)
    simp
  · subst h
    rw [if_pos rfl]
    show (((1#1).setWidth 32).toInt : ℝ) = (1 : EReal)
    simp

/-- The table of a block of index words, entry by entry: the row number, spread along the columns, is compared with the
    block's word, spread along the rows; the bit is widened, converted and narrowed, none of which changes 1 or 0. -/
theorem onehot_apply (x : IVec S1x256 32) (cc : Fin 4096) (j : Fin 256) :
    (shapeCast S4096x256
      (truncf .bf16 (sitofp (F := Ideal) .f32 (extui 32 (cmpi .eq
        (broadcastTo S4096x256 (iota .tc S4096x1 32 [0] iota_S4096x1_d0_w32) broadcasts_S4096x1_S4096x256)
        (broadcastTo S4096x256 (shapeCast S1x256 x shapeCasts_S1x256_S1x256) broadcasts_S1x256_S4096x256)) natLt_1_32))
        bitsLt_bf16_f32) shapeCasts_S4096x256_S4096x256 : FVec Ideal S4096x256 .bf16) (ix2 cc j)
      = if BitVec.ofNat 32 cc.val = x (ix2 (0 : Fin 1) j) then (1 : EReal) else 0 := by
  rw [shapeCast_self, shapeCast_self]
  rw [truncf_apply, sitofp_apply, extui_apply, bit_to_real]
  have e1 : broadcastTo S4096x256 (iota .tc S4096x1 32 [0] iota_S4096x1_d0_w32) broadcasts_S4096x1_S4096x256 (ix2 cc j)
      = BitVec.ofNat 32 cc.val := by
    refine (broadcastTo_apply _ _ (ix2 cc j) (ix2 cc (0 : Fin 1)) ?_).trans ?_
    · intro a
      match a with
      | ⟨0, _⟩ => rfl
      | ⟨1, _⟩ => rfl
    · exact iota_single_apply .tc S4096x1 32 0 iota_S4096x1_d0_w32 (ix2 cc (0 : Fin 1))
  have e2 : broadcastTo S4096x256 x broadcasts_S1x256_S4096x256 (ix2 cc j) = x (ix2 (0 : Fin 1) j) := by
    refine broadcastTo_apply _ _ (ix2 cc j) (ix2 (0 : Fin 1) j) ?_
    intro a
    match a with
    | ⟨0, _⟩ => rfl
    | ⟨1, _⟩ => rfl
  show (if IntOp.cmpi .eq (broadcastTo S4096x256 (iota .tc S4096x1 32 [0] iota_S4096x1_d0_w32) broadcasts_S4096x1_S4096x256 (ix2 cc j))
      (broadcastTo S4096x256 x broadcasts_S1x256_S4096x256 (ix2 cc j)) = 1#1 then (1 : EReal) else 0) = _
  rw [e1, e2]
  exact if_congr StableHlo.Predicate.cmpi_eq_iff rfl rfl

/-- The one-hot table built from a block of 256 index words: 1 at (row cc, cell j) where cc is the word. -/
theorem pay3_apply (x1 : Vec Ideal S1x256 .i32) (cc : Fin 4096) (j : Fin 256) :
    k0_pay3 (F := Ideal) x1 (ix2 cc j) = if BitVec.ofNat 32 cc.val = x1 (ix2 (0 : Fin 1) j) then (1 : EReal) else 0 :=
  onehot_apply x1 cc j

theorem pay4_apply (x2 : Vec Ideal S1x256 .i32) (cc : Fin 4096) (j : Fin 256) :
    k0_pay4 (F := Ideal) x2 (ix2 cc j) = if BitVec.ofNat 32 cc.val = x2 (ix2 (0 : Fin 1) j) then (1 : EReal) else 0 :=
  onehot_apply x2 cc j

theorem pay5_apply (x3 : Vec Ideal S1x256 .i32) (cc : Fin 4096) (j : Fin 256) :
    k0_pay5 (F := Ideal) x3 (ix2 cc j) = if BitVec.ofNat 32 cc.val = x3 (ix2 (0 : Fin 1) j) then (1 : EReal) else 0 :=
  onehot_apply x3 cc j

/-! ## The two matrix-unit records, axis by axis

The first record contracts the left operand's axis 1 with the right operand's axis 0; the second contracts axis 1 of
both. On the contracted axis an operand index reads the contraction position, on the other axis the result index: the
left operand's free axis reads the result's axis 0, the right operand's free axis the result's axis 1. -/

theorem d1_lhs_0 (j : S256x256.Idx) (k : dot_S256x4096_S4096x256_S256x256_1_0_0_1_n_n.contr.Idx) :
    (dot_S256x4096_S4096x256_S256x256_1_0_0_1_n_n.lhsIdx j k 0).val = (j 0).val := rfl
theorem d1_lhs_1 (j : S256x256.Idx) (k : dot_S256x4096_S4096x256_S256x256_1_0_0_1_n_n.contr.Idx) :
    (dot_S256x4096_S4096x256_S256x256_1_0_0_1_n_n.lhsIdx j k 1).val = (k ⟨0, by decide⟩).val :=
  dot_S256x4096_S4096x256_S256x256_1_0_0_1_n_n.lhsIdx_val_of_single rfl j k
theorem d1_rhs_0 (j : S256x256.Idx) (k : dot_S256x4096_S4096x256_S256x256_1_0_0_1_n_n.contr.Idx) :
    (dot_S256x4096_S4096x256_S256x256_1_0_0_1_n_n.rhsIdx j k 0).val = (k ⟨0, by decide⟩).val :=
  dot_S256x4096_S4096x256_S256x256_1_0_0_1_n_n.rhsIdx_val_of_single rfl j k
theorem d1_rhs_1 (j : S256x256.Idx) (k : dot_S256x4096_S4096x256_S256x256_1_0_0_1_n_n.contr.Idx) :
    (dot_S256x4096_S4096x256_S256x256_1_0_0_1_n_n.rhsIdx j k 1).val = (j 1).val := rfl

theorem d2_lhs_0 (j : S256x4096.Idx) (k : dot_S256x256_S4096x256_S256x4096_1_1_0_0_n_n.contr.Idx) :
    (dot_S256x256_S4096x256_S256x4096_1_1_0_0_n_n.lhsIdx j k 0).val = (j 0).val := rfl
theorem d2_lhs_1 (j : S256x4096.Idx) (k : dot_S256x256_S4096x256_S256x4096_1_1_0_0_n_n.contr.Idx) :
    (dot_S256x256_S4096x256_S256x4096_1_1_0_0_n_n.lhsIdx j k 1).val = (k ⟨0, by decide⟩).val :=
  dot_S256x256_S4096x256_S256x4096_1_1_0_0_n_n.lhsIdx_val_of_single rfl j k
theorem d2_rhs_0 (j : S256x4096.Idx) (k : dot_S256x256_S4096x256_S256x4096_1_1_0_0_n_n.contr.Idx) :
    (dot_S256x256_S4096x256_S256x4096_1_1_0_0_n_n.rhsIdx j k 0).val = (j 1).val := rfl
theorem d2_rhs_1 (j : S256x4096.Idx) (k : dot_S256x256_S4096x256_S256x4096_1_1_0_0_n_n.contr.Idx) :
    (dot_S256x256_S4096x256_S256x4096_1_1_0_0_n_n.rhsIdx j k 1).val = (k ⟨0, by decide⟩).val :=
  dot_S256x256_S4096x256_S256x4096_1_1_0_0_n_n.rhsIdx_val_of_single rfl j k

/-- The first product over a zero accumulator: row r of the left operand against column j of the right, the sum
    re-indexed from the one-axis contraction index to its coordinate. -/
theorem mm1_apply (A : FVec Ideal S256x4096 .bf16) (B : FVec Ideal S4096x256 .bf16) (r j : Fin 256) :
    matmul (F := Ideal) dot_S256x4096_S4096x256_S256x256_1_0_0_1_n_n none A B (constant (F := Ideal) S256x256 .f32 0x00000000#32) (ix2 r j)
      = ∑ c' : Fin 4096, A (ix2 r c') * B (ix2 c' j) := by
  refine (Ideal.matmul_constant_zero_apply dot_S256x4096_S4096x256_S256x256_1_0_0_1_n_n none A B (ix2 r j)).trans ?_
  rw [← Equiv.sum_comp (contrEquiv1 dot_S256x4096_S4096x256_S256x256_1_0_0_1_n_n 4096 rfl rfl).symm]
  refine Finset.sum_congr rfl fun c _ => ?_
  have hk := contrEquiv1_symm_val dot_S256x4096_S4096x256_S256x256_1_0_0_1_n_n 4096 rfl rfl c
  have l : dot_S256x4096_S4096x256_S256x256_1_0_0_1_n_n.lhsIdx (ix2 r j)
      ((contrEquiv1 dot_S256x4096_S4096x256_S256x256_1_0_0_1_n_n 4096 rfl rfl).symm c) = ix2 r c := by
    funext a; apply Fin.ext
    match a with
    | ⟨0, _⟩ => exact d1_lhs_0 _ _
    | ⟨1, _⟩ => exact (d1_lhs_1 _ _).trans hk
  have rr : dot_S256x4096_S4096x256_S256x256_1_0_0_1_n_n.rhsIdx (ix2 r j)
      ((contrEquiv1 dot_S256x4096_S4096x256_S256x256_1_0_0_1_n_n 4096 rfl rfl).symm c) = ix2 c j := by
    funext a; apply Fin.ext
    match a with
    | ⟨0, _⟩ => exact (d1_rhs_0 _ _).trans hk
    | ⟨1, _⟩ => exact d1_rhs_1 _ _
  rw [l, rr]

/-- The second product over a zero accumulator: row r of the left operand against row cc of the right. -/
theorem mm2_apply (A : FVec Ideal S256x256 .bf16) (B : FVec Ideal S4096x256 .bf16) (r : Fin 256) (cc : Fin 4096) :
    matmul (F := Ideal) dot_S256x256_S4096x256_S256x4096_1_1_0_0_n_n none A B (constant (F := Ideal) S256x4096 .f32 0x00000000#32) (ix2 r cc)
      = ∑ j : Fin 256, A (ix2 r j) * B (ix2 cc j) := by
  refine (Ideal.matmul_constant_zero_apply dot_S256x256_S4096x256_S256x4096_1_1_0_0_n_n none A B (ix2 r cc)).trans ?_
  rw [← Equiv.sum_comp (contrEquiv1 dot_S256x256_S4096x256_S256x4096_1_1_0_0_n_n 256 rfl rfl).symm]
  refine Finset.sum_congr rfl fun c _ => ?_
  have hk := contrEquiv1_symm_val dot_S256x256_S4096x256_S256x4096_1_1_0_0_n_n 256 rfl rfl c
  have l : dot_S256x256_S4096x256_S256x4096_1_1_0_0_n_n.lhsIdx (ix2 r cc)
      ((contrEquiv1 dot_S256x256_S4096x256_S256x4096_1_1_0_0_n_n 256 rfl rfl).symm c) = ix2 r c := by
    funext a; apply Fin.ext
    match a with
    | ⟨0, _⟩ => exact d2_lhs_0 _ _
    | ⟨1, _⟩ => exact (d2_lhs_1 _ _).trans hk
  have rr : dot_S256x256_S4096x256_S256x4096_1_1_0_0_n_n.rhsIdx (ix2 r cc)
      ((contrEquiv1 dot_S256x256_S4096x256_S256x4096_1_1_0_0_n_n 256 rfl rfl).symm c) = ix2 cc c := by
    funext a; apply Fin.ext
    match a with
    | ⟨0, _⟩ => exact d2_rhs_0 _ _
    | ⟨1, _⟩ => exact (d2_rhs_1 _ _).trans hk
  rw [l, rr]

/-! ## The gather products -/

/-- The feature block cast to its own shape is itself. -/
theorem pay6_eq (x0 : Vec Ideal S256x4096 .bf16) : k0_pay6 (F := Ideal) x0 = x0 := shapeCast_self _ _

/-- The gather product: row r of the feature block against column j of a table, over a zero accumulator. -/
theorem pay7_apply (x0 : Vec Ideal S256x4096 .bf16) (oh : Vec Ideal S4096x256 .bf16) (r : Fin 256) (j : Fin 256) :
    k0_pay7 (F := Ideal) x0 oh (ix2 r j) = 0 + ∑ c' : Fin 4096, x0 (ix2 r c') * oh (ix2 c' j) := by
  refine (mm1_apply (k0_pay6 (F := Ideal) x0) oh r j).trans ?_
  rw [pay6_eq, zero_add]

theorem pay8_apply (x0 : Vec Ideal S256x4096 .bf16) (oh : Vec Ideal S4096x256 .bf16) (r : Fin 256) (j : Fin 256) :
    k0_pay8 (F := Ideal) x0 oh (ix2 r j) = 0 + ∑ c' : Fin 4096, x0 (ix2 r c') * oh (ix2 c' j) :=
  pay7_apply x0 oh r j

theorem pay9_apply (x0 : Vec Ideal S256x4096 .bf16) (oh : Vec Ideal S4096x256 .bf16) (r : Fin 256) (j : Fin 256) :
    k0_pay9 (F := Ideal) x0 oh (ix2 r j) = 0 + ∑ c' : Fin 4096, x0 (ix2 r c') * oh (ix2 c' j) :=
  pay7_apply x0 oh r j

/-! ## The accumulating stores

A block [1,256,4096] and a value [256,4096] have the same row-major positions: (0, r, cc) and (r, cc) both sit at
r * 4096 + cc. -/

/-- The block [1,256,4096] viewed [256,4096] keeps the row and the column. -/
theorem drop_apply (v : FVec Ideal S1x256x4096 .f32) (r : Fin 256) (cc : Fin 4096) :
    shapeCast S256x4096 v shapeCasts_S1x256x4096_S256x4096 (ix2 r cc) = v (ix3 (0 : Fin 1) r cc) := by
  refine shapeCast_apply v _ (ix2 r cc) (ix3 (0 : Fin 1) r cc) ?_
  rw [Shape.rowMajor_val_two, Shape.rowMajor_val_three]
  show (0 * 256 + r.val) * 4096 + cc.val = r.val * 4096 + cc.val
  omega

/-- The value [256,4096] viewed [1,256,4096] keeps the row and the column. -/
theorem add_apply (v : FVec Ideal S256x4096 .f32) (r : Fin 256) (cc : Fin 4096) :
    shapeCast S1x256x4096 v shapeCasts_S256x4096_S1x256x4096 (ix3 (0 : Fin 1) r cc) = v (ix2 r cc) := by
  refine shapeCast_apply v _ (ix3 (0 : Fin 1) r cc) (ix2 r cc) ?_
  rw [Shape.rowMajor_val_two, Shape.rowMajor_val_three]
  show r.val * 4096 + cc.val = (0 * 256 + r.val) * 4096 + cc.val
  omega

/-- Plane 0's store: what the block held plus the triple product scattered through the sum of the three tables. -/
theorem pay10_apply (x0 : Vec Ideal S256x4096 .bf16) (oh0 oh1 oh2 : Vec Ideal S4096x256 .bf16) (v62 : Vec Ideal S1x256x4096 .f32)
    (r : Fin 256) (cc : Fin 4096) :
    k0_pay10 (F := Ideal) x0 oh0 oh1 oh2 v62 (ix3 (0 : Fin 1) r cc)
      = v62 (ix3 (0 : Fin 1) r cc)
        + (0 + ∑ j : Fin 256, (k0_pay7 (F := Ideal) x0 oh0 (ix2 r j) * k0_pay8 (F := Ideal) x0 oh1 (ix2 r j) * k0_pay9 (F := Ideal) x0 oh2 (ix2 r j))
            * (oh0 (ix2 cc j) + oh1 (ix2 cc j) + oh2 (ix2 cc j))) := by
  unfold k0_pay10
  refine (add_apply _ r cc).trans ?_
  refine (addf_apply _ _ (ix2 r cc)).trans ?_
  refine congrArg₂ (· + ·) (drop_apply v62 r cc) ?_
  refine (mm2_apply _ _ r cc).trans ?_
  rw [zero_add]
  rfl

/-- Plane 1's value: what the block held plus the three pair products, each scattered through the remaining table. -/
theorem pay11_apply (x0 : Vec Ideal S256x4096 .bf16) (oh0 oh1 oh2 : Vec Ideal S4096x256 .bf16) (v68 : Vec Ideal S1x256x4096 .f32)
    (r : Fin 256) (cc : Fin 4096) :
    k0_pay11 (F := Ideal) x0 oh0 oh1 oh2 v68 (ix2 r cc)
      = v68 (ix3 (0 : Fin 1) r cc)
        + (((0 + ∑ j : Fin 256, (k0_pay8 (F := Ideal) x0 oh1 (ix2 r j) * k0_pay9 (F := Ideal) x0 oh2 (ix2 r j)) * oh0 (ix2 cc j))
            + (0 + ∑ j : Fin 256, (k0_pay7 (F := Ideal) x0 oh0 (ix2 r j) * k0_pay9 (F := Ideal) x0 oh2 (ix2 r j)) * oh1 (ix2 cc j)))
          + (0 + ∑ j : Fin 256, (k0_pay7 (F := Ideal) x0 oh0 (ix2 r j) * k0_pay8 (F := Ideal) x0 oh1 (ix2 r j)) * oh2 (ix2 cc j))) := by
  unfold k0_pay11
  refine (addf_apply _ _ (ix2 r cc)).trans ?_
  refine congrArg₂ (· + ·) (drop_apply v68 r cc) ?_
  refine (addf_apply _ _ (ix2 r cc)).trans ?_
  refine congrArg₂ (· + ·) ?_ ?_
  · refine (addf_apply _ _ (ix2 r cc)).trans ?_
    refine congrArg₂ (· + ·) ?_ ?_
    · refine (mm2_apply _ _ r cc).trans ?_
      rw [zero_add]
      rfl
    · refine (mm2_apply _ _ r cc).trans ?_
      rw [zero_add]
      rfl
  · refine (mm2_apply _ _ r cc).trans ?_
    rw [zero_add]
    rfl

/-- The re-laid value stored into plane 1. -/
theorem pay1_apply (v70 : FVec Ideal S256x4096 .f32) (r : Fin 256) (cc : Fin 4096) :
    k0_pay1 (F := Ideal) v70 (ix3 (0 : Fin 1) r cc) = v70 (ix2 r cc) := add_apply v70 r cc

/-- The zero block the reset stores. -/
theorem pay2_apply (y : S2x256x4096.Idx) : k0_pay2 (F := Ideal) y = 0 := by
  show Ideal.ofBits .f32 0x00000000#32 = 0
  exact Ideal.ofBits_zero_f32

end Cert.KernelIdeal.KPay

end
-- ==== Proof.KTile.lean ====
/-
  One grid point's contribution in the specification's words. The point (ri, k) holds rows 256 ri .. 256 ri + 255 of the
  flattened features and the 256 cells of tile k of each index table; with the blocks read that way, the tables the body
  builds are the one-hot tables of those cells, its three products the gathers onto those cells, and its two stores add
  the tile's term of either plane to what the block held.
-/
import proofs.«421886_j6640019440385_3_alg».proof.Proof.KPay
import proofs.«421886_j6640019440385_3_alg».proof.Proof.Spec

noncomputable section

namespace Cert.KernelIdeal.KTile

open Cert.KernelIdeal Cert.KernelIdeal.Gen Idealize.ShloMosaic Idealize.ShloMosaic.ValueIdx Cert.Spec Cert.KernelIdeal.KPay

/-- Row r of row tile ri, among the 4096 flattened rows. -/
def rowOf (ri : Fin 16) (r : Fin 256) : Fin 4096 := ⟨256 * ri.val + r.val, by omega⟩

variable (X : SX.Idx → EReal) (i0 i1 i2 : SI.Idx → BitVec 32) (ri : Fin 16) (k : Fin 32)
variable (x0 : Vec Ideal S256x4096 .bf16) (x1 x2 x3 : Vec Ideal S1x256 .i32)

/-- The table built from the cells of tile k of a table is that table's one-hot table at those cells. -/
theorem oh3_eq (ik : SI.Idx → BitVec 32) (y : Vec Ideal S1x256 .i32)
    (hy : ∀ j : Fin 256, y (ix2 (0 : Fin 1) j) = ik (ix1 (cell k j))) (cc : Fin 4096) (j : Fin 256) :
    k0_pay3 (F := Ideal) y (ix2 cc j) = hot ik cc (cell k j) := by
  rw [pay3_apply, hy]; rfl
theorem oh4_eq (ik : SI.Idx → BitVec 32) (y : Vec Ideal S1x256 .i32)
    (hy : ∀ j : Fin 256, y (ix2 (0 : Fin 1) j) = ik (ix1 (cell k j))) (cc : Fin 4096) (j : Fin 256) :
    k0_pay4 (F := Ideal) y (ix2 cc j) = hot ik cc (cell k j) := by
  rw [pay4_apply, hy]; rfl
theorem oh5_eq (ik : SI.Idx → BitVec 32) (y : Vec Ideal S1x256 .i32)
    (hy : ∀ j : Fin 256, y (ix2 (0 : Fin 1) j) = ik (ix1 (cell k j))) (cc : Fin 4096) (j : Fin 256) :
    k0_pay5 (F := Ideal) y (ix2 cc j) = hot ik cc (cell k j) := by
  rw [pay5_apply, hy]; rfl

variable (hx0 : ∀ (r : Fin 256) (c' : Fin 4096), x0 (ix2 r c') = xrow X (rowOf ri r) c')
variable (hx1 : ∀ j : Fin 256, x1 (ix2 (0 : Fin 1) j) = i0 (ix1 (cell k j)))
variable (hx2 : ∀ j : Fin 256, x2 (ix2 (0 : Fin 1) j) = i1 (ix1 (cell k j)))
variable (hx3 : ∀ j : Fin 256, x3 (ix2 (0 : Fin 1) j) = i2 (ix1 (cell k j)))

include hx0 hx1 in
/-- The three products with the tables are the gathers onto the cells of tile k. -/
theorem g0_eq (r : Fin 256) (j : Fin 256) :
    k0_pay7 (F := Ideal) x0 (k0_pay3 (F := Ideal) x1) (ix2 r j) = kgat X i0 (rowOf ri r) (cell k j) := by
  rw [pay7_apply]; unfold kgat
  exact congrArg (fun s => (0 : EReal) + s) (Finset.sum_congr rfl fun c' _ => by rw [hx0, oh3_eq k i0 x1 hx1])
include hx0 hx2 in
theorem g1_eq (r : Fin 256) (j : Fin 256) :
    k0_pay8 (F := Ideal) x0 (k0_pay4 (F := Ideal) x2) (ix2 r j) = kgat X i1 (rowOf ri r) (cell k j) := by
  rw [pay8_apply]; unfold kgat
  exact congrArg (fun s => (0 : EReal) + s) (Finset.sum_congr rfl fun c' _ => by rw [hx0, oh4_eq k i1 x2 hx2])
include hx0 hx3 in
theorem g2_eq (r : Fin 256) (j : Fin 256) :
    k0_pay9 (F := Ideal) x0 (k0_pay5 (F := Ideal) x3) (ix2 r j) = kgat X i2 (rowOf ri r) (cell k j) := by
  rw [pay9_apply]; unfold kgat
  exact congrArg (fun s => (0 : EReal) + s) (Finset.sum_congr rfl fun c' _ => by rw [hx0, oh5_eq k i2 x3 hx3])

include hx0 hx1 hx2 hx3 in
/-- Plane 0's store adds the tile's term of plane 0. -/
theorem tile0_eq (v : Vec Ideal S1x256x4096 .f32) (r : Fin 256) (cc : Fin 4096) :
    k0_pay10 (F := Ideal) x0 (k0_pay3 (F := Ideal) x1) (k0_pay4 (F := Ideal) x2) (k0_pay5 (F := Ideal) x3) v (ix3 (0 : Fin 1) r cc)
      = v (ix3 (0 : Fin 1) r cc) + ktile X i0 i1 i2 (0 : Fin 2) (rowOf ri r) k cc := by
  rw [pay10_apply]
  refine congrArg (fun s => v (ix3 (0 : Fin 1) r cc) + s) ?_
  unfold ktile
  rw [if_pos (show ((0 : Fin 2) : ℕ) = 0 from rfl)]
  refine congrArg (fun s => (0 : EReal) + s) (Finset.sum_congr rfl fun j _ => ?_)
  rw [g0_eq X i0 ri k x0 x1 hx0 hx1, g1_eq X i1 ri k x0 x2 hx0 hx2, g2_eq X i2 ri k x0 x3 hx0 hx3,
    oh3_eq k i0 x1 hx1, oh4_eq k i1 x2 hx2, oh5_eq k i2 x3 hx3]

include hx0 hx1 hx2 hx3 in
/-- Plane 1's store adds the tile's term of plane 1. -/
theorem tile1_eq (v : Vec Ideal S1x256x4096 .f32) (r : Fin 256) (cc : Fin 4096) :
    k0_pay1 (F := Ideal) (k0_pay11 (F := Ideal) x0 (k0_pay3 (F := Ideal) x1) (k0_pay4 (F := Ideal) x2) (k0_pay5 (F := Ideal) x3) v) (ix3 (0 : Fin 1) r cc)
      = v (ix3 (0 : Fin 1) r cc) + ktile X i0 i1 i2 (1 : Fin 2) (rowOf ri r) k cc := by
  rw [pay1_apply, pay11_apply]
  refine congrArg (fun s => v (ix3 (0 : Fin 1) r cc) + s) ?_
  unfold ktile
  rw [if_neg (show ¬ ((1 : Fin 2) : ℕ) = 0 from by decide)]
  have e0 : ∀ j : Fin 256, (k0_pay8 (F := Ideal) x0 (k0_pay4 (F := Ideal) x2) (ix2 r j) * k0_pay9 (F := Ideal) x0 (k0_pay5 (F := Ideal) x3) (ix2 r j)) * k0_pay3 (F := Ideal) x1 (ix2 cc j)
      = (kgat X i1 (rowOf ri r) (cell k j) * kgat X i2 (rowOf ri r) (cell k j)) * hot i0 cc (cell k j) := fun j => by
    rw [g1_eq X i1 ri k x0 x2 hx0 hx2, g2_eq X i2 ri k x0 x3 hx0 hx3, oh3_eq k i0 x1 hx1]
  have e1 : ∀ j : Fin 256, (k0_pay7 (F := Ideal) x0 (k0_pay3 (F := Ideal) x1) (ix2 r j) * k0_pay9 (F := Ideal) x0 (k0_pay5 (F := Ideal) x3) (ix2 r j)) * k0_pay4 (F := Ideal) x2 (ix2 cc j)
      = (kgat X i0 (rowOf ri r) (cell k j) * kgat X i2 (rowOf ri r) (cell k j)) * hot i1 cc (cell k j) := fun j => by
    rw [g0_eq X i0 ri k x0 x1 hx0 hx1, g2_eq X i2 ri k x0 x3 hx0 hx3, oh4_eq k i1 x2 hx2]
  have e2 : ∀ j : Fin 256, (k0_pay7 (F := Ideal) x0 (k0_pay3 (F := Ideal) x1) (ix2 r j) * k0_pay8 (F := Ideal) x0 (k0_pay4 (F := Ideal) x2) (ix2 r j)) * k0_pay5 (F := Ideal) x3 (ix2 cc j)
      = (kgat X i0 (rowOf ri r) (cell k j) * kgat X i1 (rowOf ri r) (cell k j)) * hot i2 cc (cell k j) := fun j => by
    rw [g0_eq X i0 ri k x0 x1 hx0 hx1, g1_eq X i1 ri k x0 x2 hx0 hx2, oh5_eq k i2 x3 hx3]
  rw [Finset.sum_congr rfl fun j _ => e0 j, Finset.sum_congr rfl fun j _ => e1 j, Finset.sum_congr rfl fun j _ => e2 j]

end Cert.KernelIdeal.KTile

end
-- ==== Proof.KInv.lean ====
/-
  The accumulation across the grid. Grid point t = 32 ri + k holds rows 256 ri .. 256 ri + 255 of the flattened, re-laid
  features and cells 256 k .. 256 k + 255 of each index table (the host lines before the call only re-lay the arguments).
  At k = 0 the body zeroes the output block and adds tile 0's terms; at every other point it adds tile k's terms to what
  the point before left. So after point t the block holds, plane by plane, the accumulator after tile k of row tile ri.
-/
import proofs.«421886_j6640019440385_3_alg».proof.Proof.Gen.KernelIdeal.Frame
import proofs.«421886_j6640019440385_3_alg».proof.Proof.KPieces
import proofs.«421886_j6640019440385_3_alg».proof.Proof.KTile
import Idealize.ShloMosaic.Lib.Pipeline.Value
import Idealize.ShloMosaic.Lib.ValueLayout
import Idealize.ShloMosaic.Lib.StableHlo.Run

set_option maxRecDepth 16384

noncomputable section

namespace Cert.KernelIdeal.KInv

open Cert.KernelIdeal Cert.KernelIdeal.Gen Idealize.ShloMosaic Idealize.ShloMosaic.TcCoe Idealize.SL.Sem
open Idealize.ShloMosaic.ValueIdx Idealize.ShloMosaic.StableHlo Cert.Spec Cert.KernelIdeal.KPieces Cert.KernelIdeal.KTile Cert.KernelIdeal.KPay
open Idealize.ShloMosaic.Pipeline (Dat)

variable (m : (ℓ : Loc nD τ sig) → Buf (Elt Ideal) ℓ)

/-- Core c's argument arrays. -/
abbrev aX (c : Dev nD) : SX.Idx → EReal := m ((c.tc : Thread nD τ).loc main_arg0)
abbrev aI0 (c : Dev nD) : SI.Idx → BitVec 32 := m ((c.tc : Thread nD τ).loc main_arg1)
abbrev aI1 (c : Dev nD) : SI.Idx → BitVec 32 := m ((c.tc : Thread nD τ).loc main_arg2)
abbrev aI2 (c : Dev nD) : SI.Idx → BitVec 32 := m ((c.tc : Thread nD τ).loc main_arg3)

/-! ## The arrays the call is given -/

/-- The feature operand is the argument flattened to 4096 rows (the change of format is the identity here). -/
theorem V_v1 (c : Dev nD) : (V m c main_v1 : S4096x4096.Idx → EReal)
    = (truncf .bf16 (shapeCast S4096x4096 (aX m c) Facts₀.shapeCasts_S4x1024x4096_S4096x4096 : FVec Ideal S4096x4096 .f32) Facts₀.bitsLt_bf16_f32 : FVec Ideal S4096x4096 .bf16) := by
  show StableHlo.after hostOps0 (fun b => m (c, b)) (Proc.devRef .tc main_v1) = _
  after_results
  rfl

theorem V_v1_apply (c : Dev nD) (row : Fin 4096) (c' : Fin 4096) : V m c main_v1 (ix2 row c') = xrow (aX m c) row c' := by
  rw [V_v1]
  show shapeCast S4096x4096 (aX m c) Facts₀.shapeCasts_S4x1024x4096_S4096x4096 (ix2 row c') = _
  unfold xrow
  refine shapeCast_apply _ _ _ _ ?_
  rw [Shape.rowMajor_val_three, Shape.rowMajor_val_two]
  show ((row.val / 1024) * 1024 + row.val % 1024) * 4096 + c'.val = row.val * 4096 + c'.val
  omega

/-- Each index operand is its table as one row of 8192 words. -/
theorem V_v2 (c : Dev nD) : (V m c main_v2 : S1x8192.Idx → BitVec 32) = shapeCast S1x8192 (aI0 m c) Facts₀.shapeCasts_S8192_S1x8192 := by
  show StableHlo.after hostOps0 (fun b => m (c, b)) (Proc.devRef .tc main_v2) = _
  after_results
  rfl
theorem V_v3 (c : Dev nD) : (V m c main_v3 : S1x8192.Idx → BitVec 32) = shapeCast S1x8192 (aI1 m c) Facts₀.shapeCasts_S8192_S1x8192 := by
  show StableHlo.after hostOps0 (fun b => m (c, b)) (Proc.devRef .tc main_v3) = _
  after_results
  rfl
theorem V_v4 (c : Dev nD) : (V m c main_v4 : S1x8192.Idx → BitVec 32) = shapeCast S1x8192 (aI2 m c) Facts₀.shapeCasts_S8192_S1x8192 := by
  show StableHlo.after hostOps0 (fun b => m (c, b)) (Proc.devRef .tc main_v4) = _
  after_results
  rfl

theorem V_v2_apply (c : Dev nD) (n : Fin 8192) : V m c main_v2 (ix2 (0 : Fin 1) n) = aI0 m c (ix1 n) := by
  rw [V_v2]; exact shapeCast_a_1a_apply _ _ _ _
theorem V_v3_apply (c : Dev nD) (n : Fin 8192) : V m c main_v3 (ix2 (0 : Fin 1) n) = aI1 m c (ix1 n) := by
  rw [V_v3]; exact shapeCast_a_1a_apply _ _ _ _
theorem V_v4_apply (c : Dev nD) (n : Fin 8192) : V m c main_v4 (ix2 (0 : Fin 1) n) = aI2 m c (ix1 n) := by
  rw [V_v4]; exact shapeCast_a_1a_apply _ _ _ _

/-! ## The blocks at a grid point -/

theorem N512 : cfg0.N = 512 := N_0

/-- The row tile and the cell tile of grid point t. -/
def riOf (t : Fin cfg0.N) : Fin 16 := ⟨t.val / 32, by have := lt_of_lt_of_eq t.isLt N512; omega⟩
def kOf (t : Fin cfg0.N) : Fin 32 := ⟨t.val % 32, Nat.mod_lt _ (by norm_num)⟩

/-- Where each window's block sits, decided over the grid: the features' by row tile, the tables' by cell tile, the
    output's by row tile. -/
theorem idx_facts : ∀ t : Fin cfg0.N, win0_0.index t (0 : Fin 2) = t.val / 32 ∧ win0_0.index t (1 : Fin 2) = 0
    ∧ win0_1.index t (0 : Fin 2) = 0 ∧ win0_1.index t (1 : Fin 2) = t.val % 32
    ∧ win0_2.index t (0 : Fin 2) = 0 ∧ win0_2.index t (1 : Fin 2) = t.val % 32
    ∧ win0_3.index t (0 : Fin 2) = 0 ∧ win0_3.index t (1 : Fin 2) = t.val % 32
    ∧ win0_4.index t (0 : Fin 3) = 0 ∧ win0_4.index t (1 : Fin 3) = t.val / 32 ∧ win0_4.index t (2 : Fin 3) = 0 :=
  (by decide +kernel : ∀ t : Fin grid0.N, _)

/-- The input blocks at point t, at their literal types. -/
abbrev xblk (c : Dev nD) (t : Fin cfg0.N) : Vec Ideal S256x4096 .bf16 := iblk m c 0 t
abbrev blk1 (c : Dev nD) (t : Fin cfg0.N) : Vec Ideal S1x256 .i32 := iblk m c 1 t
abbrev blk2 (c : Dev nD) (t : Fin cfg0.N) : Vec Ideal S1x256 .i32 := iblk m c 2 t
abbrev blk3 (c : Dev nD) (t : Fin cfg0.N) : Vec Ideal S1x256 .i32 := iblk m c 3 t

theorem xblk_apply (c : Dev nD) (t : Fin cfg0.N) (r : Fin 256) (c' : Fin 4096) :
    xblk m c t (ix2 r c') = xrow (aX m c) (rowOf (riOf t) r) c' := by
  obtain ⟨e0, e1, -⟩ := idx_facts t
  refine Eq.trans ?_ (V_v1_apply m c (rowOf (riOf t) r) c')
  show V m c main_v1 (((cfg0.win 0).blk t).view.emb (ix2 r c')) = V m c main_v1 (ix2 (rowOf (riOf t) r) c')
  refine congrArg (V m c main_v1) (funext fun a => Fin.ext ?_)
  match a with
  | ⟨0, _⟩ => show win0_0.index t (0 : Fin 2) * 256 + 1 * r.val = 256 * (t.val / 32) + r.val; rw [e0]; omega
  | ⟨1, _⟩ => show win0_0.index t (1 : Fin 2) * 4096 + 1 * c'.val = c'.val; rw [e1]; omega

theorem blk1_apply (c : Dev nD) (t : Fin cfg0.N) (j : Fin 256) :
    blk1 m c t (ix2 (0 : Fin 1) j) = aI0 m c (ix1 (cell (kOf t) j)) := by
  obtain ⟨-, -, e0, e1, -⟩ := idx_facts t
  refine Eq.trans ?_ (V_v2_apply m c (cell (kOf t) j))
  show V m c main_v2 (((cfg0.win 1).blk t).view.emb (ix2 (0 : Fin 1) j)) = V m c main_v2 (ix2 (0 : Fin 1) (cell (kOf t) j))
  refine congrArg (V m c main_v2) (funext fun a => Fin.ext ?_)
  match a with
  | ⟨0, _⟩ => show win0_1.index t (0 : Fin 2) * 1 + 1 * 0 = 0; rw [e0]
  | ⟨1, _⟩ => show win0_1.index t (1 : Fin 2) * 256 + 1 * j.val = 256 * (t.val % 32) + j.val; rw [e1]; omega

theorem blk2_apply (c : Dev nD) (t : Fin cfg0.N) (j : Fin 256) :
    blk2 m c t (ix2 (0 : Fin 1) j) = aI1 m c (ix1 (cell (kOf t) j)) := by
  obtain ⟨-, -, -, -, e0, e1, -⟩ := idx_facts t
  refine Eq.trans ?_ (V_v3_apply m c (cell (kOf t) j))
  show V m c main_v3 (((cfg0.win 2).blk t).view.emb (ix2 (0 : Fin 1) j)) = V m c main_v3 (ix2 (0 : Fin 1) (cell (kOf t) j))
  refine congrArg (V m c main_v3) (funext fun a => Fin.ext ?_)
  match a with
  | ⟨0, _⟩ => show win0_2.index t (0 : Fin 2) * 1 + 1 * 0 = 0; rw [e0]
  | ⟨1, _⟩ => show win0_2.index t (1 : Fin 2) * 256 + 1 * j.val = 256 * (t.val % 32) + j.val; rw [e1]; omega

theorem blk3_apply (c : Dev nD) (t : Fin cfg0.N) (j : Fin 256) :
    blk3 m c t (ix2 (0 : Fin 1) j) = aI2 m c (ix1 (cell (kOf t) j)) := by
  obtain ⟨-, -, -, -, -, -, e0, e1, -⟩ := idx_facts t
  refine Eq.trans ?_ (V_v4_apply m c (cell (kOf t) j))
  show V m c main_v4 (((cfg0.win 3).blk t).view.emb (ix2 (0 : Fin 1) j)) = V m c main_v4 (ix2 (0 : Fin 1) (cell (kOf t) j))
  refine congrArg (V m c main_v4) (funext fun a => Fin.ext ?_)
  match a with
  | ⟨0, _⟩ => show win0_3.index t (0 : Fin 2) * 1 + 1 * 0 = 0; rw [e0]
  | ⟨1, _⟩ => show win0_3.index t (1 : Fin 2) * 256 + 1 * j.val = 256 * (t.val % 32) + j.val; rw [e1]; omega

/-! ## One point's step, plane by plane -/

/-- The tile term point t adds to plane p at (r, cc). -/
abbrev term (c : Dev nD) (t : Fin cfg0.N) (p : Fin 2) (r : Fin 256) (cc : Fin 4096) : EReal :=
  ktile (aX m c) (aI0 m c) (aI1 m c) (aI2 m c) p (rowOf (riOf t) r) (kOf t) cc

/-- What the point before left (any contents at the first point). -/
abbrev prev (c : Dev nD) (t : Fin cfg0.N) : Vec Ideal S2x256x4096 .f32 :=
  outsAt0 m c (t.val - 1) (Nat.lt_of_le_of_lt (Nat.sub_le _ _) t.isLt)

theorem stepB_canon (c : Dev nD) (t : Fin cfg0.N) (h0 : ¬t.val % 32 = 0) :
    outsAt0 m c t.val t.isLt
      = View.canon [(⟨R1, k0_pay1 (k0_pay11 (xblk m c t) (k0_pay3 (blk1 m c t)) (k0_pay4 (blk2 m c t)) (k0_pay5 (blk3 m c t)) (View.ld (prev m c t) R1))⟩ : View.Piece (Elt Ideal) S2x256x4096 .f32),
          ⟨R0, k0_pay10 (xblk m c t) (k0_pay3 (blk1 m c t)) (k0_pay4 (blk2 m c t)) (k0_pay5 (blk3 m c t)) (View.ld (prev m c t) R0)⟩] :=
  (outsAt0_B m c t h0).trans
    (outB_canon c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (xblk m c t) (blk1 m c t) (blk2 m c t) (blk3 m c t) (prev m c t))

theorem stepB0 (c : Dev nD) (t : Fin cfg0.N) (h0 : ¬t.val % 32 = 0) (r : Fin 256) (cc : Fin 4096) :
    outsAt0 m c t.val t.isLt (ix3 (0 : Fin 2) r cc) = prev m c t (ix3 (0 : Fin 2) r cc) + term m c t (0 : Fin 2) r cc :=
  ((congrFun (stepB_canon m c t h0) (ix3 (0 : Fin 2) r cc)).trans (canon_at0 _ _ [] r cc)).trans
    ((tile0_eq (aX m c) (aI0 m c) (aI1 m c) (aI2 m c) (riOf t) (kOf t) (xblk m c t) (blk1 m c t) (blk2 m c t) (blk3 m c t)
        (xblk_apply m c t) (blk1_apply m c t) (blk2_apply m c t) (blk3_apply m c t) (View.ld (prev m c t) R0) r cc).trans
      (congrArg (fun s => s + term m c t (0 : Fin 2) r cc) (ld_R0 (prev m c t) r cc)))

theorem stepB1 (c : Dev nD) (t : Fin cfg0.N) (h0 : ¬t.val % 32 = 0) (r : Fin 256) (cc : Fin 4096) :
    outsAt0 m c t.val t.isLt (ix3 (1 : Fin 2) r cc) = prev m c t (ix3 (1 : Fin 2) r cc) + term m c t (1 : Fin 2) r cc :=
  ((congrFun (stepB_canon m c t h0) (ix3 (1 : Fin 2) r cc)).trans (canon_at1 _ _ [] r cc)).trans
    ((tile1_eq (aX m c) (aI0 m c) (aI1 m c) (aI2 m c) (riOf t) (kOf t) (xblk m c t) (blk1 m c t) (blk2 m c t) (blk3 m c t)
        (xblk_apply m c t) (blk1_apply m c t) (blk2_apply m c t) (blk3_apply m c t) (View.ld (prev m c t) R1) r cc).trans
      (congrArg (fun s => s + term m c t (1 : Fin 2) r cc) (ld_R1 (prev m c t) r cc)))

/-- Plane 0's payload over the zero block, at the first cell tile. -/
abbrev w0A (c : Dev nD) (t : Fin cfg0.N) : Vec Ideal S1x256x4096 .f32 :=
  k0_pay10 (xblk m c t) (k0_pay3 (blk1 m c t)) (k0_pay4 (blk2 m c t)) (k0_pay5 (blk3 m c t)) (fun j => (k0_pay2 (F := Ideal)) (R0.idx j))

theorem stepA_canon (c : Dev nD) (t : Fin cfg0.N) (h0 : t.val % 32 = 0) :
    outsAt0 m c t.val t.isLt
      = View.canon [(⟨R1, k0_pay1 (k0_pay11 (xblk m c t) (k0_pay3 (blk1 m c t)) (k0_pay4 (blk2 m c t)) (k0_pay5 (blk3 m c t))
              (fun j => View.canon [(⟨R0, w0A m c t⟩ : View.Piece (Elt Ideal) S2x256x4096 .f32), ⟨Rw, k0_pay2 (F := Ideal)⟩] (R1.idx j)))⟩ : View.Piece (Elt Ideal) S2x256x4096 .f32),
          ⟨R0, w0A m c t⟩, ⟨Rw, k0_pay2 (F := Ideal)⟩] :=
  (outsAt0_A m c t h0).trans
    (outA_canon c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (xblk m c t) (blk1 m c t) (blk2 m c t) (blk3 m c t))

theorem stepA0 (c : Dev nD) (t : Fin cfg0.N) (h0 : t.val % 32 = 0) (r : Fin 256) (cc : Fin 4096) :
    outsAt0 m c t.val t.isLt (ix3 (0 : Fin 2) r cc) = 0 + term m c t (0 : Fin 2) r cc := by
  refine (congrFun (stepA_canon m c t h0) (ix3 (0 : Fin 2) r cc)).trans ?_
  rw [canon_at0 (F := Ideal)]
  show k0_pay10 (xblk m c t) (k0_pay3 (blk1 m c t)) (k0_pay4 (blk2 m c t)) (k0_pay5 (blk3 m c t))
      (fun j => (k0_pay2 (F := Ideal)) (R0.idx j)) (ix3 (0 : Fin 1) r cc) = _
  rw [tile0_eq (aX m c) (aI0 m c) (aI1 m c) (aI2 m c) (riOf t) (kOf t) (xblk m c t) (blk1 m c t) (blk2 m c t) (blk3 m c t)
    (xblk_apply m c t) (blk1_apply m c t) (blk2_apply m c t) (blk3_apply m c t)]
  show k0_pay2 (F := Ideal) (R0.idx (ix3 (0 : Fin 1) r cc)) + _ = _
  rw [pay2_apply]

theorem stepA1 (c : Dev nD) (t : Fin cfg0.N) (h0 : t.val % 32 = 0) (r : Fin 256) (cc : Fin 4096) :
    outsAt0 m c t.val t.isLt (ix3 (1 : Fin 2) r cc) = 0 + term m c t (1 : Fin 2) r cc := by
  refine (congrFun (stepA_canon m c t h0) (ix3 (1 : Fin 2) r cc)).trans ?_
  rw [canon_at1 (F := Ideal)]
  rw [tile1_eq (aX m c) (aI0 m c) (aI1 m c) (aI2 m c) (riOf t) (kOf t) (xblk m c t) (blk1 m c t) (blk2 m c t) (blk3 m c t)
    (xblk_apply m c t) (blk1_apply m c t) (blk2_apply m c t) (blk3_apply m c t)]
  show View.canon [(⟨R0, w0A m c t⟩ : View.Piece (Elt Ideal) S2x256x4096 .f32), ⟨Rw, k0_pay2 (F := Ideal)⟩] (R1.idx (ix3 (0 : Fin 1) r cc)) + _ = _
  rw [canonA_read1 (F := Ideal), pay2_apply]

theorem stepA (c : Dev nD) (t : Fin cfg0.N) (h0 : t.val % 32 = 0) (p : Fin 2) (r : Fin 256) (cc : Fin 4096) :
    outsAt0 m c t.val t.isLt (ix3 p r cc) = 0 + term m c t p r cc := by
  match p with
  | ⟨0, _⟩ => exact stepA0 m c t h0 r cc
  | ⟨1, _⟩ => exact stepA1 m c t h0 r cc

theorem stepB (c : Dev nD) (t : Fin cfg0.N) (h0 : ¬t.val % 32 = 0) (p : Fin 2) (r : Fin 256) (cc : Fin 4096) :
    outsAt0 m c t.val t.isLt (ix3 p r cc) = prev m c t (ix3 p r cc) + term m c t p r cc := by
  match p with
  | ⟨0, _⟩ => exact stepB0 m c t h0 r cc
  | ⟨1, _⟩ => exact stepB1 m c t h0 r cc

/-! ## The accumulation -/

theorem kacc_succ (f : ℕ → EReal) (k : ℕ) : kacc f (k + 1) = kacc f k + f (k + 1) := rfl
theorem kacc_zero (f : ℕ → EReal) : kacc f 0 = 0 + f 0 := rfl

/-- After point n the output block holds the accumulator after cell tile n mod 32 of row tile n / 32. -/
theorem inv (c : Dev nD) : ∀ (n : ℕ) (h : n < cfg0.N) (p : Fin 2) (r : Fin 256) (cc : Fin 4096),
    outsAt0 m c n h (ix3 p r cc)
      = kacc (ktileN (aX m c) (aI0 m c) (aI1 m c) (aI2 m c) p (rowOf (riOf ⟨n, h⟩) r) cc) (n % 32) := by
  intro n
  induction n with
  | zero =>
    intro h p r cc
    rw [stepA m c ⟨0, h⟩ rfl p r cc]
    show 0 + ktile _ _ _ _ p (rowOf (riOf ⟨0, h⟩) r) (kOf ⟨0, h⟩) cc = kacc _ 0
    rw [kacc_zero]
    unfold ktileN
    rw [dif_pos (by norm_num)]
    rfl
  | succ n ih =>
    intro h p r cc
    have hN : n + 1 < 512 := lt_of_lt_of_eq h N512
    by_cases h0 : (n + 1) % 32 = 0
    · rw [stepA m c ⟨n + 1, h⟩ h0 p r cc]
      show 0 + ktile _ _ _ _ p (rowOf (riOf ⟨n + 1, h⟩) r) (kOf ⟨n + 1, h⟩) cc = kacc _ ((n + 1) % 32)
      rw [h0, kacc_zero]
      unfold ktileN
      rw [dif_pos (by norm_num)]
      have hk : kOf ⟨n + 1, h⟩ = (⟨0, by norm_num⟩ : Fin 32) := Fin.ext h0
      rw [hk]
    · rw [stepB m c ⟨n + 1, h⟩ h0 p r cc]
      show outsAt0 m c n _ (ix3 p r cc) + ktile _ _ _ _ p (rowOf (riOf ⟨n + 1, h⟩) r) (kOf ⟨n + 1, h⟩) cc = _
      rw [ih (Nat.lt_of_succ_lt h) p r cc]
      have hri : riOf ⟨n, Nat.lt_of_succ_lt h⟩ = riOf ⟨n + 1, h⟩ := Fin.ext (by show n / 32 = (n + 1) / 32; omega)
      obtain ⟨k', hk'⟩ : ∃ k', (n + 1) % 32 = k' + 1 := ⟨(n + 1) % 32 - 1, by omega⟩
      have hn : n % 32 = k' := by omega
      rw [hri, hn, hk', kacc_succ]
      refine congrArg (fun s => kacc (ktileN (aX m c) (aI0 m c) (aI1 m c) (aI2 m c) p (rowOf (riOf ⟨n + 1, h⟩) r) cc) k' + s) ?_
      unfold ktileN
      have hlt : k' + 1 < 32 := by omega
      rw [dif_pos hlt]
      have hk : kOf ⟨n + 1, h⟩ = (⟨k' + 1, hlt⟩ : Fin 32) := Fin.ext hk'
      rw [hk]

end Cert.KernelIdeal.KInv

end
-- ==== Proof.KValue.lean ====
/-
  The kernel's result, read index by index, is the specification G when every index word is in range. The output block of
  row tile ri is written back once, after its last cell tile, holding the finished accumulators of its 256 rows: a block
  of the array whose entry (p, row, c) is plane p of the specification at flattened row row; the sixteen write-backs tile
  that array; and the host line after the call re-lays (2, 4096, 4096) as (8, 1024, 4096), which sends plane p, row
  1024 f + r to row 4 p + f of the first axis.
-/
import proofs.«421886_j6640019440385_3_alg».proof.Proof.Gen.KernelIdeal.Frame
import proofs.«421886_j6640019440385_3_alg».proof.Proof.Spec
import proofs.«421886_j6640019440385_3_alg».proof.Proof.KAlg
import proofs.«421886_j6640019440385_3_alg».proof.Proof.KInv
import Idealize.ShloMosaic.Lib.Pipeline.Value
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo Cert.Spec Cert.KernelIdeal.KTile Cert.KernelIdeal.KInv
open Idealize.ShloMosaic.Pipeline (Dat)

variable (m : (ℓ : Loc nD τ sig) → Buf (Elt Ideal) ℓ) (ρ : Dev nD → PrngReg)

theorem k_lt0 (i : S2x4096x4096.Idx) : (i 0).val < 2 := (i 0).isLt
theorem k_lt1 (i : S2x4096x4096.Idx) : (i 1).val < 4096 := (i 1).isLt
theorem k_lt2 (i : S2x4096x4096.Idx) : (i 2).val < 4096 := (i 2).isLt

/-- The call's result array as the specification has it: plane, flattened row, channel. -/
def Gk (X : SX.Idx → EReal) (i0 i1 i2 : SI.Idx → BitVec 32) : S2x4096x4096.Idx → EReal := fun i =>
  res X i0 i1 i2 ⟨(i 0).val, k_lt0 i⟩ ⟨(i 1).val / 1024, by have := k_lt1 i; omega⟩ ⟨(i 1).val % 1024, Nat.mod_lt _ (by norm_num)⟩
    ⟨(i 2).val, k_lt2 i⟩

/-- The specification's entry depends on the numbers only. -/
theorem res_congr (X : SX.Idx → EReal) (i0 i1 i2 : SI.Idx → BitVec 32) {p p' : Fin 2} {f f' : Fin 4} {r r' : Fin 1024} {c c' : Fin 4096}
    (hp : p.val = p'.val) (hf : f.val = f'.val) (hr : r.val = r'.val) (hc : c.val = c'.val) :
    res X i0 i1 i2 p f r c = res X i0 i1 i2 p' f' r' c' := by
  obtain rfl := Fin.ext hp; obtain rfl := Fin.ext hf; obtain rfl := Fin.ext hr; obtain rfl := Fin.ext hc; rfl

section
variable (hr : ∀ c : Dev nD, InRange (m ((c.tc : Thread nD τ).loc main_arg1)) ∧ InRange (m ((c.tc : Thread nD τ).loc main_arg2)) ∧ InRange (m ((c.tc : Thread nD τ).loc main_arg3)))

include hr in
/-- What a write-back stores is its block of the specification's array. -/
theorem flushed_eq (c : Dev nD) (t : Fin cfg0.N) (hf : (cfg0.win 4).flush t = true) :
    (dats m 0 c).flushed 4 t = ((cfg0.win 4).blk t).view.read (Elt Ideal) (Gk (aX m c) (aI0 m c) (aI1 m c) (aI2 m c)) := by
  have h31 : t.val % 32 = 31 := (flush0_4 t).mp hf
  obtain ⟨-, -, -, -, -, -, -, -, e0, e1, e2⟩ := idx_facts t
  show (cfg0.win 4).cut (grid0.coords t) ((dats m 0 c).after 4 t) = _
  rw [after0_4]
  refine funext fun (j : S2x256x4096.Idx) => ?_
  obtain ⟨p, r, cc, rfl⟩ : ∃ (p : Fin 2) (r : Fin 256) (cc : Fin 4096), j = ix3 p r cc := ⟨j 0, j 1, j 2, eq_ix3 j⟩
  show outsAt0 m c t.val t.isLt (ix3 p r cc) = Gk (aX m c) (aI0 m c) (aI1 m c) (aI2 m c) (((cfg0.win 4).blk t).view.emb (ix3 p r cc))
  rw [inv m c t.val t.isLt p r cc, h31, kacc_eq_res (aX m c) (aI0 m c) (aI1 m c) (aI2 m c) (hr c).1 (hr c).2.1 (hr c).2.2 p _ cc]
  unfold Gk
  refine res_congr _ _ _ _ ?_ ?_ ?_ ?_
  · show p.val = win0_4.index t (0 : Fin 3) * 2 + 1 * p.val
    rw [e0]; omega
  · show (256 * (t.val / 32) + r.val) / 1024 = (win0_4.index t (1 : Fin 3) * 256 + 1 * r.val) / 1024
    rw [e1]; congr 1; omega
  · show (256 * (t.val / 32) + r.val) % 1024 = (win0_4.index t (1 : Fin 3) * 256 + 1 * r.val) % 1024
    rw [e1]; congr 1; omega
  · show cc.val = win0_4.index t (2 : Fin 3) * 4096 + 1 * cc.val
    rw [e2]; omega

/-- An index of the array is in point t's block iff each coordinate is in the block's range on its axis. -/
theorem mem_blk (t : Fin cfg0.N) (i : S2x4096x4096.Idx) :
    i ∈ ((cfg0.win 4).blk t).view.set ↔ ∀ a : Fin 3, win0_4.index t a * S2x256x4096.size a ≤ (i a).val ∧ (i a).val < win0_4.index t a * S2x256x4096.size a + S2x256x4096.size a := by
  show i ∈ ((View.whole main_v5).slice (win0_4.rect t)).set ↔ _
  rw [View.set_slice_whole, Rect.mem_set_unit]
  exact Iff.rfl

/-- Every index of the array is in the block of the last cell tile of its row tile, which is written back. -/
theorem cover (i : S2x4096x4096.Idx) : ∃ t : Fin cfg0.N, (cfg0.win 4).flush t = true ∧ i ∈ ((cfg0.win 4).blk t).view.set := by
  have h0 := k_lt0 i
  have h1 := k_lt1 i
  have h2 := k_lt2 i
  have hlt : 32 * ((i 1).val / 256) + 31 < cfg0.N := by rw [N512]; omega
  obtain ⟨-, -, -, -, -, -, -, -, e0, e1, e2⟩ := idx_facts ⟨32 * ((i 1).val / 256) + 31, hlt⟩
  refine ⟨⟨32 * ((i 1).val / 256) + 31, hlt⟩, (flush0_4 _).mpr (by show (32 * ((i 1).val / 256) + 31) % 32 = 31; omega), ?_⟩
  rw [mem_blk]
  intro a
  match a with
  | ⟨0, _⟩ =>
    show win0_4.index _ (0 : Fin 3) * 2 ≤ (i 0).val ∧ (i 0).val < win0_4.index _ (0 : Fin 3) * 2 + 2
    rw [e0]; omega
  | ⟨1, _⟩ =>
    show win0_4.index _ (1 : Fin 3) * 256 ≤ (i 1).val ∧ (i 1).val < win0_4.index _ (1 : Fin 3) * 256 + 256
    rw [e1]; show (32 * ((i 1).val / 256) + 31) / 32 * 256 ≤ (i 1).val ∧ (i 1).val < (32 * ((i 1).val / 256) + 31) / 32 * 256 + 256
    omega
  | ⟨2, _⟩ =>
    show win0_4.index _ (2 : Fin 3) * 4096 ≤ (i 2).val ∧ (i 2).val < win0_4.index _ (2 : Fin 3) * 4096 + 4096
    rw [e2]; omega

include hr in
/-- So the call's result array ends at the specification's array. -/
theorem final (c : Dev nD) : (dats m 0 c).arrAt 4 cfg0.N = Gk (aX m c) (aI0 m c) (aI1 m c) (aI2 m c) :=
  (dats m 0 c).arrAt_eq_of_cover 4 (Gk (aX m c) (aI0 m c) (aI1 m c) (aI2 m c)) (fun t hf => flushed_eq m hr c t hf) cover

include hr in
/-- The host line after the call re-lays it as G. -/
theorem tail_eq (c : Dev nD) :
    Pipeline.afterTail₀ cfgs (dats m) 0 (V0 m) [hostOps1] c main_v6 = G (aX m c) (aI0 m c) (aI1 m c) (aI2 m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = (Gk (aX m c) (aI0 m c) (aI1 m c) (aI2 m c)) :=
    (Pipeline.withArrays_arr spec0 launch0.win.arr_inj c _ _ 4).trans (final m hr c)
  funext o
  show shapeCast S8x1024x4096 (Pipeline.withArrays (cfgs 0).spec c (V0 m c) (fun w => (dats m 0 c).arrAt w (cfgs 0).N) (Proc.devRef .tc main_v5))
      Facts₀.shapeCasts_S2x4096x4096_S8x1024x4096 o = _
  rw [hw]
  have h0 : (o 0).val < 8 := (o 0).isLt
  have h1 : (o 1).val < 1024 := (o 1).isLt
  have h2 : (o 2).val < 4096 := (o 2).isLt
  refine (shapeCast_apply (Gk (aX m c) (aI0 m c) (aI1 m c) (aI2 m c)) Facts₀.shapeCasts_S2x4096x4096_S8x1024x4096 o
    (ix3 (⟨(o 0).val / 4, by omega⟩ : Fin 2) (⟨(o 0).val % 4 * 1024 + (o 1).val, by omega⟩ : Fin 4096) (⟨(o 2).val, h2⟩ : Fin 4096)) ?_).trans ?_
  · rw [Shape.rowMajor_val_three, Shape.rowMajor_val_three]
    show ((o 0).val / 4 * 4096 + ((o 0).val % 4 * 1024 + (o 1).val)) * 4096 + (o 2).val = ((o 0).val * 1024 + (o 1).val) * 4096 + (o 2).val
    omega
  · unfold Gk G
    refine res_congr _ _ _ _ rfl ?_ ?_ rfl
    · show ((o 0).val % 4 * 1024 + (o 1).val) / 1024 = (o 0).val % 4
      omega
    · show ((o 0).val % 4 * 1024 + (o 1).val) % 1024 = (o 1).val
      omega

include hr in
/-- The run of the kernel's program with its result named by the specification. -/
theorem run_G :
    θ_run (defs (F := Ideal)) (onTc (τ := τ) (main (F := Ideal))) ⟨m, fun _ => 0, ρ⟩ fun r => ∀ c : Dev nD,
      r.2.mem ((c.tc : Thread nD τ).loc main_v6) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m hr c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end

end Cert.KernelIdeal.KValue

end
-- ==== Proof.RefOps.lean ====
/-
  The reference's two indexed operations, read at an index. The gather takes, for cell n, the features of the
  channel that cell's word names: result (f, r, n) is the operand at (f, r, word n), the word read signed and clamped
  into [0, 4095], which is the word itself when it is below 4096. The accumulating scatter adds update (f, r, n) onto
  (f, r, word n) when that lies in the operand, so that element (f, r, c) of the result is the operand's plus the sum,
  over the cells n whose word is c, of update (f, r, n). Both are stated over an arbitrary column of words together
  with a function ch giving each cell's channel, so that they apply to each of the program's index columns.
-/
import proofs.«421886_j6640019440385_3_alg».proof.Proof.Gen.ReferenceIdeal
import proofs.«421886_j6640019440385_3_alg».proof.Proof.Spec

noncomputable section

namespace Cert.ReferenceIdeal.RefOps

open Cert.ReferenceIdeal Cert.ReferenceIdeal.Gen Idealize.ShloMosaic Idealize.ShloMosaic.ValueIdx Cert.Spec

/-- The gather's dimension numbers: offset axes 0 and 1, axis 2 collapsed and start-indexed. -/
abbrev gd := gather_S4x1024x4096_S8192x1_S4x1024x8192_01_2_n_n_2_1_410241
/-- The scatter's dimension numbers: window axes 0 and 1, axis 2 inserted and scattered. -/
abbrev sd := scatter_S4x1024x4096_S8192x1_S4x1024x8192_01_2_2_1

/-! ## Words -/

/-- A word below 4096 read as a signed integer is itself. -/
theorem toInt_of_lt (v : BitVec 32) (h : v.toNat < 4096) : v.toInt = (v.toNat : Int) := by
  rw [BitVec.toInt_eq_toNat_cond]
  rw [if_pos (by omega)]

/-- A word below 4096 is not signed-negative, so the wrap-around select (add 4096 to a negative index) leaves it
    as it is. -/
theorem norm_word (v : BitVec 32) (h : v.toNat < 4096) :
    Scalar.select (IntOp.cmpi .slt v 0#32) (IntOp.addi v 4096#32) v = v := by
  have hs : IntOp.cmpi .slt v 0#32 = 0#1 := by
    unfold IntOp.cmpi
    have : v.slt 0#32 = false := by
      rw [BitVec.slt, toInt_of_lt v h]
      simp
    simp only [this]
    rfl
  rw [hs, select_zero]

/-- In range, the channel of a cell is its word. -/
theorem chan_val (ik : SI.Idx → BitVec 32) (h : InRange ik) (n : Fin 8192) : (chan ik n).val = (ik (ix1 n)).toNat :=
  Nat.mod_eq_of_lt (h n)

/-- Two rank-3 indices given by coordinates are equal only coordinate by coordinate. -/
theorem ix3_inj {n0 n1 n2 : Nat} {a a' : Fin n0} {b b' : Fin n1} {c c' : Fin n2}
    (h : ix3 a b c = ix3 a' b' c') : a = a' ∧ b = b' ∧ c = c' :=
  ⟨congrFun h (0 : Fin 3), congrFun h (1 : Fin 3), congrFun h (2 : Fin 3)⟩

/-! ## The gather -/

/-- Result index j reads its start index at row (j 2) of the column: axis 2 is the result's one batch axis. -/
theorem gather_siIdx (j : S4x1024x8192.Idx) (c : Fin gd.startIndexMap.length) :
    gd.siIdx j c = ix2 (⟨(j 2).val, (j 2).isLt⟩ : Fin 8192) (0 : Fin 1) := by
  funext b
  match b with
  | ⟨0, _⟩ => rfl
  | ⟨1, _⟩ =>
    apply Fin.ext
    have := c.isLt
    show c.val = 0
    have h1 : gd.startIndexMap.length = 1 := rfl
    omega

/-- THE GATHER AT (f, r, n): the operand at (f, r, ch n), where ch n is cell n's word (a number below 4096, so
    the clamp into [0, 4095] does nothing). On axes 0 and 1 the start is 0 and the offset the result's coordinate;
    on axis 2 the offset is 0 and the start the clamped word. -/
theorem gather_apply {α : Type} (x : S4x1024x4096.Idx → α) (col : IVec S8192x1 32) (ch : Fin 8192 → Fin 4096)
    (hch : ∀ n : Fin 8192, (col (ix2 n (0 : Fin 1))).toNat = (ch n).val)
    (f : Fin 4) (r : Fin 1024) (n : Fin 8192) :
    Host.gather gd x col (ix3 f r n) = x (ix3 f r (ch n)) := by
  unfold Host.gather
  congr 1
  funext a
  apply Fin.ext
  show gd.start (ix3 f r n) col a + gd.batchCoord (ix3 f r n) a + gd.offCoord (ix3 f r n) a = _
  rw [GatherDims.batchCoord_eq_zero _ _ _ List.not_mem_nil]
  have h0 : gd.start (ix3 f r n) col 0 + 0 + gd.offCoord (ix3 f r n) 0 = f.val := by
    unfold GatherDims.start GatherDims.offCoord
    rw [dif_neg (by decide), dif_pos (by decide)]
    simp only [Nat.zero_add]
    rfl
  have h1 : gd.start (ix3 f r n) col 1 + 0 + gd.offCoord (ix3 f r n) 1 = r.val := by
    unfold GatherDims.start GatherDims.offCoord
    rw [dif_neg (by decide), dif_pos (by decide)]
    simp only [Nat.zero_add]
    rfl
  have h2 : gd.start (ix3 f r n) col 2 + 0 + gd.offCoord (ix3 f r n) 2 = (ch n).val := by
    have hlt : (col (ix2 n (0 : Fin 1))).toNat < 4096 := by rw [hch n]; exact (ch n).isLt
    unfold GatherDims.start GatherDims.offCoord
    rw [dif_pos (by decide), dif_neg (by decide), gather_siIdx]
    show min (col (ix2 n (0 : Fin 1))).toInt.toNat (4096 - 1) + 0 + 0 = (ch n).val
    rw [toInt_of_lt _ hlt, ← hch n]
    simp only [Int.toNat_natCast, Nat.add_zero]
    omega
  match a with
  | ⟨0, _⟩ => exact h0
  | ⟨1, _⟩ => exact h1
  | ⟨2, _⟩ => exact h2

/-! ## The accumulating scatter -/

/-- Update index j reads its scatter index at row (j 2) of the column: axis 2 is the updates' one scatter axis. -/
theorem scatter_siIdx (j : S4x1024x8192.Idx) (c : Fin sd.scatterDimsToOperandDims.length) :
    sd.siIdx j c = ix2 (⟨(j 2).val, (j 2).isLt⟩ : Fin 8192) (0 : Fin 1) := by
  funext b
  match b with
  | ⟨0, _⟩ => rfl
  | ⟨1, _⟩ =>
    apply Fin.ext
    have := c.isLt
    show c.val = 0
    have h1 : sd.scatterDimsToOperandDims.length = 1 := rfl
    omega

/-- Update (f, r, n) lands at (f, r, ch n): on axes 0 and 1 the start is 0 and the window coordinate the update's,
    on axis 2 the window coordinate is 0 and the start the word, which is inside the operand. -/
theorem scatter_resultIdx (col : IVec S8192x1 32) (ch : Fin 8192 → Fin 4096)
    (hch : ∀ n : Fin 8192, (col (ix2 n (0 : Fin 1))).toNat = (ch n).val)
    (f : Fin 4) (r : Fin 1024) (n : Fin 8192) :
    sd.resultIdx? (ix3 f r n) col = some (ix3 f r (ch n)) := by
  have h0 : sd.start (ix3 f r n) col 0 + (sd.window (ix3 f r n) 0 : Int) = (f.val : Int) := by
    unfold ScatterDims.start ScatterDims.window
    rw [dif_neg (by decide), dif_pos (by decide)]
    simp only [Int.zero_add]
    rfl
  have h1 : sd.start (ix3 f r n) col 1 + (sd.window (ix3 f r n) 1 : Int) = (r.val : Int) := by
    unfold ScatterDims.start ScatterDims.window
    rw [dif_neg (by decide), dif_pos (by decide)]
    simp only [Int.zero_add]
    rfl
  have h2 : sd.start (ix3 f r n) col 2 + (sd.window (ix3 f r n) 2 : Int) = ((ch n).val : Int) := by
    unfold ScatterDims.start ScatterDims.window
    rw [dif_pos (by decide), dif_neg (by decide), scatter_siIdx]
    show (col (ix2 n (0 : Fin 1))).toInt + ((0 : Nat) : Int) = _
    rw [toInt_of_lt _ (by rw [hch n]; exact (ch n).isLt), hch n]
    simp
  have hall : ∀ a, sd.start (ix3 f r n) col a + (sd.window (ix3 f r n) a : Int)
      = (((ix3 f r (ch n) : S4x1024x4096.Idx) a).val : Int) := by
    intro a
    match a with
    | ⟨0, _⟩ => exact h0
    | ⟨1, _⟩ => exact h1
    | ⟨2, _⟩ => exact h2
  unfold ScatterDims.resultIdx?
  rw [dif_pos (by
    intro a
    rw [hall a]
    exact ⟨Int.natCast_nonneg _, by exact_mod_cast ((ix3 f r (ch n) : S4x1024x4096.Idx) a).isLt⟩)]
  congr 1
  funext a
  apply Fin.ext
  show (sd.start (ix3 f r n) col a + (sd.window (ix3 f r n) a : Int)).toNat = _
  rw [hall a]
  simp

/-- Which update cells land on (f, r, c): those of row (f, r) whose word names channel c. -/
theorem scatter_lands (col : IVec S8192x1 32) (ch : Fin 8192 → Fin 4096)
    (hch : ∀ n : Fin 8192, (col (ix2 n (0 : Fin 1))).toNat = (ch n).val)
    (f : Fin 4) (r : Fin 1024) (c : Fin 4096) (j : S4x1024x8192.Idx) :
    sd.resultIdx? j col = some (ix3 f r c) ↔
      j = ix3 f r (⟨(j 2).val, (j 2).isLt⟩ : Fin 8192) ∧ ch ⟨(j 2).val, (j 2).isLt⟩ = c := by
  obtain ⟨a, b, n, rfl⟩ : ∃ (a : Fin 4) (b : Fin 1024) (n : Fin 8192), j = ix3 a b n := ⟨_, _, _, eq_ix3 j⟩
  rw [scatter_resultIdx col ch hch]
  constructor
  · intro h
    obtain ⟨ha, hb, hc⟩ := ix3_inj (Option.some.inj h)
    subst ha; subst hb
    exact ⟨rfl, hc⟩
  · rintro ⟨h1, h2⟩
    obtain ⟨ha, hb, -⟩ := ix3_inj h1
    subst ha; subst hb
    have h2' : ch n = c := h2
    rw [h2']

/-- THE ACCUMULATING SCATTER AT (f, r, c): the operand's element plus the sum, over the cells n whose channel is c,
    of update (f, r, n). The updates landing on (f, r, c) are exactly the (f, r, n) with ch n = c: the sum over them
    is re-indexed by n. -/
theorem scatter_apply (x : S4x1024x4096.Idx → EReal) (col : IVec S8192x1 32) (upd : S4x1024x8192.Idx → EReal)
    (ch : Fin 8192 → Fin 4096) (hch : ∀ n : Fin 8192, (col (ix2 n (0 : Fin 1))).toNat = (ch n).val)
    (f : Fin 4) (r : Fin 1024) (c : Fin 4096) :
    Ideal.hostScatterAdd sd x col upd (ix3 f r c)
      = x (ix3 f r c) + ∑ n : Fin 8192, if ch n = c then upd (ix3 f r n) else 0 := by
  unfold Ideal.hostScatterAdd
  refine congrArg (x (ix3 f r c) + ·) ?_
  rw [← Finset.sum_filter]
  refine Finset.sum_bij' (fun j _ => (⟨(j 2).val, (j 2).isLt⟩ : Fin 8192)) (fun n _ => ix3 f r n) ?_ ?_ ?_ ?_ ?_
  · intro j hj
    have := (scatter_lands col ch hch f r c j).1 (Finset.mem_filter.1 hj).2
    exact Finset.mem_filter.2 ⟨Finset.mem_univ _, this.2⟩
  · intro n hn
    have hn' : ch n = c := (Finset.mem_filter.1 hn).2
    refine Finset.mem_filter.2 ⟨Finset.mem_univ _, ?_⟩
    rw [scatter_resultIdx col ch hch, hn']
  · intro j hj
    exact ((scatter_lands col ch hch f r c j).1 (Finset.mem_filter.1 hj).2).1.symm
  · intro n _
    rfl
  · intro j hj
    exact congrArg upd ((scatter_lands col ch hch f r c j).1 (Finset.mem_filter.1 hj).2).1

end Cert.ReferenceIdeal.RefOps

end
-- ==== Proof.RefValue.lean ====
/-
  The reference's result, read index by index: every gather reads the feature at the channel its cell's word names,
  every accumulating scatter adds a cell's value onto that channel, and the two planes are stacked. With every word in
  range this is the specification G.
-/
import proofs.«421886_j6640019440385_3_alg».proof.Proof.Gen.ReferenceIdeal.Run
import proofs.«421886_j6640019440385_3_alg».proof.Proof.Gen.ReferenceIdeal.Read
import proofs.«421886_j6640019440385_3_alg».proof.Proof.Spec
import proofs.«421886_j6640019440385_3_alg».proof.Proof.RefOps
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Cert.Spec
open Cert.ReferenceIdeal.Read Cert.ReferenceIdeal.RefOps Idealize.ShloMosaic.ValueIdx

/-! ## The index columns

Each of the nine columns is its table normalised (a negative word has 4096 added) and laid as an [8192, 1] column. In
range no word is negative, so row n of the column is the table's word n, whose value is the channel of cell n. -/

/-- The normalised word at a cell, in range: the channel of the cell. The zero and the 4096 are passed as the values
    two broadcast constants read at the cell. -/
theorem col_word (x : SI.Idx → BitVec 32) (h : InRange x) (n : Fin 8192) (j : SI.Idx) (hj : j = ix1 n)
    (z w : BitVec 32) (hz : z = 0#32) (hw : w = 4096#32) :
    (Scalar.select (IntOp.cmpi .slt (x j) z) (IntOp.addi (x j) w) (x j)).toNat = (chan x n).val := by
  subst hj; subst hz; subst hw
  rw [norm_word _ (h n), chan_val x h n]

/-- Row n of an [8192, 1] column reads word n of the table it was laid from. -/
theorem col_row (n : Fin 8192) :
    (fun a : Fin 1 => match a with | ⟨0, _⟩ => (⟨((ix2 n (0 : Fin 1) : S8192x1.Idx) 0).val, ((ix2 n (0 : Fin 1) : S8192x1.Idx) 0).isLt⟩ : Fin 8192))
      = (ix1 n : SI.Idx) := by
  funext a
  match a with
  | ⟨0, _⟩ => rfl

section
variable (X : SX.Idx → EReal) (i0 i1 i2 : SI.Idx → BitVec 32)

theorem col5 (h : InRange i0) (n : Fin 8192) : (val_main_v5 (F := Ideal) i0 (ix2 n (0 : Fin 1))).toNat = (chan i0 n).val := by
  rw [val_main_v5_apply, val_main_v4_apply, val_main_v1_apply, val_main_v3_apply]
  exact col_word i0 h n _ (col_row n) _ _ (by rw [val_main_v0_apply, val_main_c_apply]) (by rw [val_main_v2_apply, val_main_c_0_apply])

theorem col12 (h : InRange i1) (n : Fin 8192) : (val_main_v12 (F := Ideal) i1 (ix2 n (0 : Fin 1))).toNat = (chan i1 n).val := by
  rw [val_main_v12_apply, val_main_v11_apply, val_main_v8_apply, val_main_v10_apply]
  exact col_word i1 h n _ (col_row n) _ _ (by rw [val_main_v7_apply, val_main_c_1_apply]) (by rw [val_main_v9_apply, val_main_c_2_apply])

theorem col19 (h : InRange i2) (n : Fin 8192) : (val_main_v19 (F := Ideal) i2 (ix2 n (0 : Fin 1))).toNat = (chan i2 n).val := by
  rw [val_main_v19_apply, val_main_v18_apply, val_main_v15_apply, val_main_v17_apply]
  exact col_word i2 h n _ (col_row n) _ _ (by rw [val_main_v14_apply, val_main_c_3_apply]) (by rw [val_main_v16_apply, val_main_c_4_apply])

theorem col29 (h : InRange i0) (n : Fin 8192) : (val_main_v29 (F := Ideal) i0 (ix2 n (0 : Fin 1))).toNat = (chan i0 n).val := by
  rw [val_main_v29_apply, val_main_v28_apply, val_main_v25_apply, val_main_v27_apply]
  exact col_word i0 h n _ (col_row n) _ _ (by rw [val_main_v24_apply, val_main_c_5_apply]) (by rw [val_main_v26_apply, val_main_c_6_apply])

theorem col36 (h : InRange i1) (n : Fin 8192) : (val_main_v36 (F := Ideal) i1 (ix2 n (0 : Fin 1))).toNat = (chan i1 n).val := by
  rw [val_main_v36_apply, val_main_v35_apply, val_main_v32_apply, val_main_v34_apply]
  exact col_word i1 h n _ (col_row n) _ _ (by rw [val_main_v31_apply, val_main_c_7_apply]) (by rw [val_main_v33_apply, val_main_c_8_apply])

theorem col43 (h : InRange i2) (n : Fin 8192) : (val_main_v43 (F := Ideal) i2 (ix2 n (0 : Fin 1))).toNat = (chan i2 n).val := by
  rw [val_main_v43_apply, val_main_v42_apply, val_main_v39_apply, val_main_v41_apply]
  exact col_word i2 h n _ (col_row n) _ _ (by rw [val_main_v38_apply, val_main_c_9_apply]) (by rw [val_main_v40_apply, val_main_c_10_apply])

theorem col51 (h : InRange i0) (n : Fin 8192) : (val_main_v51 (F := Ideal) i0 (ix2 n (0 : Fin 1))).toNat = (chan i0 n).val := by
  rw [val_main_v51_apply, val_main_v50_apply, val_main_v47_apply, val_main_v49_apply]
  exact col_word i0 h n _ (col_row n) _ _ (by rw [val_main_v46_apply, val_main_c_11_apply]) (by rw [val_main_v48_apply, val_main_c_12_apply])

theorem col59 (h : InRange i1) (n : Fin 8192) : (val_main_v59 (F := Ideal) i1 (ix2 n (0 : Fin 1))).toNat = (chan i1 n).val := by
  rw [val_main_v59_apply, val_main_v58_apply, val_main_v55_apply, val_main_v57_apply]
  exact col_word i1 h n _ (col_row n) _ _ (by rw [val_main_v54_apply, val_main_c_13_apply]) (by rw [val_main_v56_apply, val_main_c_14_apply])

theorem col67 (h : InRange i2) (n : Fin 8192) : (val_main_v67 (F := Ideal) i2 (ix2 n (0 : Fin 1))).toNat = (chan i2 n).val := by
  rw [val_main_v67_apply, val_main_v66_apply, val_main_v63_apply, val_main_v65_apply]
  exact col_word i2 h n _ (col_row n) _ _ (by rw [val_main_v62_apply, val_main_c_15_apply]) (by rw [val_main_v64_apply, val_main_c_16_apply])

/-! ## The gathers and their products -/

theorem v6_read (h : InRange i0) (f : Fin 4) (r : Fin 1024) (n : Fin 8192) :
    val_main_v6 (F := Ideal) X i0 (ix3 f r n) = gat X i0 f r n := by
  unfold val_main_v6
  exact gather_apply X _ (chan i0) (col5 i0 h) f r n

theorem v13_read (h : InRange i1) (f : Fin 4) (r : Fin 1024) (n : Fin 8192) :
    val_main_v13 (F := Ideal) X i1 (ix3 f r n) = gat X i1 f r n := by
  unfold val_main_v13
  exact gather_apply X _ (chan i1) (col12 i1 h) f r n

theorem v20_read (h : InRange i2) (f : Fin 4) (r : Fin 1024) (n : Fin 8192) :
    val_main_v20 (F := Ideal) X i2 (ix3 f r n) = gat X i2 f r n := by
  unfold val_main_v20
  exact gather_apply X _ (chan i2) (col19 i2 h) f r n

/-- The triple product at a cell. -/
theorem v23_read (h0 : InRange i0) (h1 : InRange i1) (h2 : InRange i2) (f : Fin 4) (r : Fin 1024) (n : Fin 8192) :
    val_main_v23 (F := Ideal) X i0 i1 i2 (ix3 f r n) = gat X i0 f r n * gat X i1 f r n * gat X i2 f r n := by
  rw [val_main_v23_apply, val_main_v22_apply, v6_read X i0 h0, v13_read X i1 h1, v20_read X i2 h2]
  rfl

/-- The pair products at a cell. -/
theorem v45_read (h1 : InRange i1) (h2 : InRange i2) (f : Fin 4) (r : Fin 1024) (n : Fin 8192) :
    val_main_v45 (F := Ideal) X i1 i2 (ix3 f r n) = gat X i1 f r n * gat X i2 f r n := by
  rw [val_main_v45_apply, v13_read X i1 h1, v20_read X i2 h2]
  rfl

theorem v53_read (h0 : InRange i0) (h2 : InRange i2) (f : Fin 4) (r : Fin 1024) (n : Fin 8192) :
    val_main_v53 (F := Ideal) X i0 i2 (ix3 f r n) = gat X i0 f r n * gat X i2 f r n := by
  rw [val_main_v53_apply, v6_read X i0 h0, v20_read X i2 h2]
  rfl

theorem v61_read (h0 : InRange i0) (h1 : InRange i1) (f : Fin 4) (r : Fin 1024) (n : Fin 8192) :
    val_main_v61 (F := Ideal) X i0 i1 (ix3 f r n) = gat X i0 f r n * gat X i1 f r n := by
  rw [val_main_v61_apply, v6_read X i0 h0, v13_read X i1 h1]
  rfl

/-! ## The scatters -/

/-- The operand of the first scatter of each plane is the zero array. -/
theorem v21_read (i : S4x1024x4096.Idx) : val_main_v21 (F := Ideal) i = 0 := by
  rw [val_main_v21_apply, val_main_cst_apply]
  exact Ideal.ofBits_zero_f32

theorem v30_read (h0 : InRange i0) (h1 : InRange i1) (h2 : InRange i2) (f : Fin 4) (r : Fin 1024) (c : Fin 4096) :
    val_main_v30 (F := Ideal) X i0 i1 i2 (ix3 f r c)
      = 0 + scat i0 (fun n => gat X i0 f r n * gat X i1 f r n * gat X i2 f r n) c := by
  unfold val_main_v30
  show Ideal.hostScatterAdd sd _ _ _ (ix3 f r c) = _
  rw [scatter_apply _ _ _ (chan i0) (col29 i0 h0), v21_read]
  unfold scat
  simp only [v23_read X i0 i1 i2 h0 h1 h2]

theorem v37_read (h0 : InRange i0) (h1 : InRange i1) (h2 : InRange i2) (f : Fin 4) (r : Fin 1024) (c : Fin 4096) :
    val_main_v37 (F := Ideal) X i0 i1 i2 (ix3 f r c)
      = 0 + scat i0 (fun n => gat X i0 f r n * gat X i1 f r n * gat X i2 f r n) c
        + scat i1 (fun n => gat X i0 f r n * gat X i1 f r n * gat X i2 f r n) c := by
  unfold val_main_v37
  show Ideal.hostScatterAdd sd _ _ _ (ix3 f r c) = _
  rw [scatter_apply _ _ _ (chan i1) (col36 i1 h1), v30_read X i0 i1 i2 h0 h1 h2]
  unfold scat
  simp only [v23_read X i0 i1 i2 h0 h1 h2]

theorem v44_read (h0 : InRange i0) (h1 : InRange i1) (h2 : InRange i2) (f : Fin 4) (r : Fin 1024) (c : Fin 4096) :
    val_main_v44 (F := Ideal) X i0 i1 i2 (ix3 f r c) = res X i0 i1 i2 0 f r c := by
  unfold val_main_v44
  show Ideal.hostScatterAdd sd _ _ _ (ix3 f r c) = _
  rw [scatter_apply _ _ _ (chan i2) (col43 i2 h2), v37_read X i0 i1 i2 h0 h1 h2]
  unfold res
  rw [if_pos (show ((0 : Fin 2) : Nat) = 0 from rfl), zero_add]
  unfold scat
  simp only [v23_read X i0 i1 i2 h0 h1 h2]

theorem v52_read (h0 : InRange i0) (h1 : InRange i1) (h2 : InRange i2) (f : Fin 4) (r : Fin 1024) (c : Fin 4096) :
    val_main_v52 (F := Ideal) X i0 i1 i2 (ix3 f r c) = 0 + scat i0 (fun n => gat X i1 f r n * gat X i2 f r n) c := by
  unfold val_main_v52
  show Ideal.hostScatterAdd sd _ _ _ (ix3 f r c) = _
  rw [scatter_apply _ _ _ (chan i0) (col51 i0 h0), v21_read]
  unfold scat
  simp only [v45_read X i1 i2 h1 h2]

theorem v60_read (h0 : InRange i0) (h1 : InRange i1) (h2 : InRange i2) (f : Fin 4) (r : Fin 1024) (c : Fin 4096) :
    val_main_v60 (F := Ideal) X i0 i1 i2 (ix3 f r c)
      = 0 + scat i0 (fun n => gat X i1 f r n * gat X i2 f r n) c + scat i1 (fun n => gat X i0 f r n * gat X i2 f r n) c := by
  unfold val_main_v60
  show Ideal.hostScatterAdd sd _ _ _ (ix3 f r c) = _
  rw [scatter_apply _ _ _ (chan i1) (col59 i1 h1), v52_read X i0 i1 i2 h0 h1 h2]
  unfold scat
  simp only [v53_read X i0 i2 h0 h2]

theorem v68_read (h0 : InRange i0) (h1 : InRange i1) (h2 : InRange i2) (f : Fin 4) (r : Fin 1024) (c : Fin 4096) :
    val_main_v68 (F := Ideal) X i0 i1 i2 (ix3 f r c) = res X i0 i1 i2 1 f r c := by
  unfold val_main_v68
  show Ideal.hostScatterAdd sd _ _ _ (ix3 f r c) = _
  rw [scatter_apply _ _ _ (chan i2) (col67 i2 h2), v60_read X i0 i1 i2 h0 h1 h2]
  unfold res
  rw [if_neg (show ¬ ((1 : Fin 2) : Nat) = 0 by decide), zero_add]
  unfold scat
  simp only [v61_read X i0 i1 h0 h1]

/-! ## The two planes stacked -/

/-- G at an index is plane p at row f of the features, once the first coordinate is written as 4 p + f. -/
theorem G_plane (o : SO.Idx) (p : Fin 2) (f : Fin 4) (hp : (o 0).val / 4 = p.val) (hf : (o 0).val % 4 = f.val) :
    G X i0 i1 i2 o = res X i0 i1 i2 p f ⟨(o 1).val, so_lt1 o⟩ ⟨(o 2).val, so_lt2 o⟩ := by
  have e1 : (⟨(o 0).val / 4, by have := so_lt0 o; omega⟩ : Fin 2) = p := Fin.ext hp
  have e2 : (⟨(o 0).val % 4, Nat.mod_lt _ (by norm_num)⟩ : Fin 4) = f := Fin.ext hf
  unfold G
  rw [e1, e2]

/-- The concatenation along the first axis reads plane 0 on rows 0 to 3 and plane 1 on rows 4 to 7. -/
theorem v69_read (h0 : InRange i0) (h1 : InRange i1) (h2 : InRange i2) (o : SO.Idx) :
    val_main_v69 (F := Ideal) X i0 i1 i2 o = G X i0 i1 i2 o := by
  unfold val_main_v69
  by_cases ho : (o 0).val < 4
  · rw [concatenate_pair_apply_left (t := S8x1024x4096) (s₁ := S4x1024x4096) (s₂ := S4x1024x4096) (0 : Fin 3) _ _ _ o rfl
      (ix3 (⟨(o 0).val, ho⟩ : Fin 4) (⟨(o 1).val, so_lt1 o⟩ : Fin 1024) (⟨(o 2).val, so_lt2 o⟩ : Fin 4096))
      (fun b => match b with | ⟨0, _⟩ => rfl | ⟨1, _⟩ => rfl | ⟨2, _⟩ => rfl)]
    rw [v44_read X i0 i1 i2 h0 h1 h2,
      G_plane X i0 i1 i2 o 0 ⟨(o 0).val, ho⟩ (Nat.div_eq_of_lt ho) (Nat.mod_eq_of_lt ho)]
  · have h8 := so_lt0 o
    have hlt : (o 0).val - 4 < 4 := by omega
    rw [concatenate_pair_apply_right (t := S8x1024x4096) (s₁ := S4x1024x4096) (s₂ := S4x1024x4096) (0 : Fin 3) _ _ _ o rfl rfl
      (ix3 (⟨(o 0).val - 4, hlt⟩ : Fin 4) (⟨(o 1).val, so_lt1 o⟩ : Fin 1024) (⟨(o 2).val, so_lt2 o⟩ : Fin 4096))
      (fun b => match b with
        | ⟨0, _⟩ => fun hb => absurd rfl hb
        | ⟨1, _⟩ => fun _ => rfl
        | ⟨2, _⟩ => fun _ => rfl)
      (by show (o 0).val - 4 + 4 = (o 0).val; omega)]
    rw [v68_read X i0 i1 i2 h0 h1 h2,
      G_plane X i0 i1 i2 o 1 ⟨(o 0).val - 4, hlt⟩ (by show (o 0).val / 4 = 1; omega) (by show (o 0).val % 4 = (o 0).val - 4; omega)]

end

/-- The run of the reference with its result named by the specification. -/
theorem run_G (m : (ℓ : Loc nD τ sig) → Buf (Elt Ideal) ℓ) (ρ : Dev nD → PrngReg)
    (hr : ∀ c : Dev nD, InRange (m ((c.tc : Thread nD τ).loc main_arg1)) ∧ InRange (m ((c.tc : Thread nD τ).loc main_arg2)) ∧ InRange (m ((c.tc : Thread nD τ).loc main_arg3))) :
    θ_run (defs (F := Ideal)) (onTc (τ := τ) (main (F := Ideal))) ⟨m, fun _ => 0, ρ⟩ fun r => ∀ c : Dev nD,
      r.2.mem ((c.tc : Thread nD τ).loc main_v69) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceIdeal.Value.run m ρ)
  obtain ⟨hv, ha0, ha1, ha2, ha3⟩ := h c
  refine ⟨?_, ha0, ha1, ha2, ha3⟩
  rw [hv, val_main_v69_eq]
  funext o
  exact v69_read _ _ _ _ (hr c).1 (hr c).2.1 (hr c).2.2 o

end Cert.ReferenceIdeal.RefValue

end
-- ==== Proof.lean ====
/-
  The certificate's claims. The kernel computes a gather, a cell-by-cell product and a scatter-add along the channel axis
  as products with one-hot tables on the matrix unit, 256 cells at a time, accumulating into its resident output block;
  the reference gathers and scatter-adds directly. Both end at one function of the argument arrays (Spec.lean's G) once
  every index word names a channel, which is what the precondition says of the three tables: the kernel's side is
  KValue.lean, the reference's RefValue.lean, the precondition's reading PreFacts.lean. The three frames are the generated
  ones (the reference's is its run with the result dropped); nothing was rewritten by the idealization, so preserves is trivial.
-/
import proofs.«421886_j6640019440385_3_alg».proof.Defs
import proofs.«421886_j6640019440385_3_alg».proof.Proof.Gen.Kernel
import proofs.«421886_j6640019440385_3_alg».proof.Proof.Gen.Kernel.Frame
import proofs.«421886_j6640019440385_3_alg».proof.Proof.Gen.KernelIdeal
import proofs.«421886_j6640019440385_3_alg».proof.Proof.Gen.KernelIdeal.Frame
import proofs.«421886_j6640019440385_3_alg».proof.Proof.Gen.ReferenceIdeal
import proofs.«421886_j6640019440385_3_alg».proof.Proof.Gen.ReferenceIdeal.Run
import proofs.«421886_j6640019440385_3_alg».proof.Proof.Gen.Pre_finite_inputs
import proofs.«421886_j6640019440385_3_alg».proof.Proof.Spec
import proofs.«421886_j6640019440385_3_alg».proof.Proof.PreFacts
import proofs.«421886_j6640019440385_3_alg».proof.Proof.KValue
import proofs.«421886_j6640019440385_3_alg».proof.Proof.RefValue
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at G of the arguments: the kernel's tables are in range by the precondition, the reference's are
    the same tables. -/
theorem algebraic : Cert.algebraic_KernelIdeal_ReferenceIdeal := by
  intro m ρ m' ρ' hpre hagree
  have hk : ∀ c : Dev Cert.KernelIdeal.nD, InRange (m ((c.tc : Thread Cert.KernelIdeal.nD Cert.KernelIdeal.τ).loc Cert.KernelIdeal.main_arg1)) ∧ InRange (m ((c.tc : Thread Cert.KernelIdeal.nD Cert.KernelIdeal.τ).loc Cert.KernelIdeal.main_arg2)) ∧ InRange (m ((c.tc : Thread Cert.KernelIdeal.nD Cert.KernelIdeal.τ).loc Cert.KernelIdeal.main_arg3)) :=
    fun c => Cert.PreFacts.inRange_of_pre _ _ _ _ (hpre c)
  have hr : ∀ c : Dev Cert.ReferenceIdeal.nD, InRange (m' ((c.tc : Thread Cert.ReferenceIdeal.nD Cert.ReferenceIdeal.τ).loc Cert.ReferenceIdeal.main_arg1)) ∧ InRange (m' ((c.tc : Thread Cert.ReferenceIdeal.nD Cert.ReferenceIdeal.τ).loc Cert.ReferenceIdeal.main_arg2)) ∧ InRange (m' ((c.tc : Thread Cert.ReferenceIdeal.nD Cert.ReferenceIdeal.τ).loc Cert.ReferenceIdeal.main_arg3)) := by
    intro c
    rw [(hagree c).2.1, (hagree c).2.2.1, (hagree c).2.2.2]
    exact hk c
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KValue.run_G m ρ hk, ?_⟩
  refine (θ_run Cert.ReferenceIdeal.defs _ _).mono (fun _ h c => ⟨(h c).1.trans ?_, (h c).2⟩)
    (Cert.ReferenceIdeal.RefValue.run_G m' ρ' hr)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
